-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x200000x3 : Shape := ⟨3, ![32, 200000, 3]⟩
abbrev S32x3x4 : Shape := ⟨3, ![32, 3, 4]⟩
abbrev S_ : Shape := ⟨0, ![]⟩

class Facts : Prop where
  bcast_S_S32x200000x3 : S_.BroadcastsInDim S32x200000x3 (![] : Fin 0 → Fin S32x200000x3.rank)
  reducesTo_S32x200000x3_S_d0_1_2 : S32x200000x3.ReducesTo [0, 1, 2] S_
  h_S_ : 0 < S_.numel
  bcast_S_S32x3x4 : S_.BroadcastsInDim S32x3x4 (![] : Fin 0 → Fin S32x3x4.rank)
  reducesTo_S32x3x4_S_d0_1_2 : S32x3x4.ReducesTo [0, 1, 2] S_

variable [Facts]

def fn {F : FTy → Type} [FloatOps F] (main_arg0 : FVec F S32x200000x3 .f32) (main_arg1 : FVec F S32x3x4 .f32) : IVec S_ 1 :=
  let main_v0 : FVec F S32x200000x3 .f32 := Host.absf main_arg0
  let main_cst : FVec F S_ .f32 := constant S_ .f32 0x7F800000#32
  let main_v1 : FVec F S32x200000x3 .f32 := broadcastInDim S32x200000x3 ![] bcast_S_S32x200000x3 main_cst
  let main_v2 : IVec S32x200000x3 1 := cmpf .olt main_v0 main_v1
  let main_c : IVec S_ 1 := constantI S_ 1 1#1
  let main_v3 : IVec S_ 1 := (fun x v => Host.reduce IntOp.andi x v reducesTo_S32x200000x3_S_d0_1_2 h_S_) main_v2 main_c
  let main_v4 : FVec F S32x3x4 .f32 := Host.absf main_arg1
  let main_cst_0 : FVec F S_ .f32 := constant S_ .f32 0x7F800000#32
  let main_v5 : FVec F S32x3x4 .f32 := broadcastInDim S32x3x4 ![] bcast_S_S32x3x4 main_cst_0
  let main_v6 : IVec S32x3x4 1 := cmpf .olt main_v4 main_v5
  let main_c_1 : IVec S_ 1 := constantI S_ 1 1#1
  let main_v7 : IVec S_ 1 := (fun x v => Host.reduce IntOp.andi x v reducesTo_S32x3x4_S_d0_1_2 h_S_) main_v6 main_c_1
  let main_v8 : IVec S_ 1 := andi main_v3 main_v7
  main_v8
-- ==== Kernel.lean ====
abbrev S32x200000x3 : Shape := ⟨3, ![32, 200000, 3]⟩
abbrev S32x3x4 : Shape := ⟨3, ![32, 3, 4]⟩
abbrev S3x32x200000 : Shape := ⟨3, ![3, 32, 200000]⟩
abbrev S_ : Shape := ⟨0, ![]⟩
abbrev S3x32x204800 : Shape := ⟨3, ![3, 32, 204800]⟩
abbrev S32x204800 : Shape := ⟨2, ![32, 204800]⟩
abbrev S3x32x8192 : Shape := ⟨3, ![3, 32, 8192]⟩
abbrev S32x8192 : Shape := ⟨2, ![32, 8192]⟩
abbrev S1x32x8192 : Shape := ⟨3, ![1, 32, 8192]⟩
abbrev S32x1x1 : Shape := ⟨3, ![32, 1, 1]⟩
abbrev S32 : Shape := ⟨1, ![32]⟩
abbrev S32x1 : Shape := ⟨2, ![32, 1]⟩
abbrev S6553600 : Shape := ⟨1, ![6553600]⟩
abbrev S33554432 : Shape := ⟨1, ![33554432]⟩
abbrev S6553600x1 : Shape := ⟨2, ![6553600, 1]⟩
abbrev S33554432x1 : Shape := ⟨2, ![33554432, 1]⟩
abbrev S32x1024x1024 : Shape := ⟨3, ![32, 1024, 1024]⟩

abbrev nBuf : Space → Nat
  | .hbm => 36
  | .vmem => 7
  | .smem => 0
  | _ => 0

abbrev bufTy : (tb : Table) → Fin (tcTables nBuf tb) → BufTy
  | .hbm, ⟨0, _⟩ => ⟨S32x200000x3, .f32⟩
  | .hbm, ⟨1, _⟩ => ⟨S32x3x4, .f32⟩
  | .hbm, ⟨2, _⟩ => ⟨S3x32x200000, .f32⟩
  | .hbm, ⟨3, _⟩ => ⟨S_, .i32⟩
  | .hbm, ⟨4, _⟩ => ⟨S_, .f32⟩
  | .hbm, ⟨5, _⟩ => ⟨S3x32x204800, .f32⟩
  | .hbm, ⟨6, _⟩ => ⟨S32x204800, .i32⟩
  | .hbm, ⟨7, _⟩ => ⟨S32x204800, .f32⟩
  | .hbm, ⟨8, _⟩ => ⟨S6553600, .i32⟩
  | .hbm, ⟨9, _⟩ => ⟨S6553600, .f32⟩
  | .hbm, ⟨10, _⟩ => ⟨S6553600, .i32⟩
  | .hbm, ⟨11, _⟩ => ⟨S_, .i32⟩
  | .hbm, ⟨12, _⟩ => ⟨S33554432, .i32⟩
  | .hbm, ⟨13, _⟩ => ⟨S6553600x1, .i32⟩
  | .hbm, ⟨14, _⟩ => ⟨S33554432, .i32⟩
  | .hbm, ⟨15, _⟩ => ⟨S_, .i32⟩
  | .hbm, ⟨16, _⟩ => ⟨S33554432, .i32⟩
  | .hbm, ⟨17, _⟩ => ⟨S33554432, .i1⟩
  | .hbm, ⟨18, _⟩ => ⟨S_, .i32⟩
  | .hbm, ⟨19, _⟩ => ⟨S_, .i32⟩
  | .hbm, ⟨20, _⟩ => ⟨S33554432, .i32⟩
  | .hbm, ⟨21, _⟩ => ⟨S33554432, .i32⟩
  | .hbm, ⟨22, _⟩ => ⟨S_, .i32⟩
  | .hbm, ⟨23, _⟩ => ⟨S33554432, .i32⟩
  | .hbm, ⟨24, _⟩ => ⟨S33554432, .i1⟩
  | .hbm, ⟨25, _⟩ => ⟨S_, .i32⟩
  | .hbm, ⟨26, _⟩ => ⟨S33554432, .i32⟩
  | .hbm, ⟨27, _⟩ => ⟨S33554432, .i32⟩
  | .hbm, ⟨28, _⟩ => ⟨S33554432, .i32⟩
  | .hbm, ⟨29, _⟩ => ⟨S33554432x1, .i32⟩
  | .hbm, ⟨30, _⟩ => ⟨S33554432, .f32⟩
  | .hbm, ⟨31, _⟩ => ⟨S_, .f32⟩
  | .hbm, ⟨32, _⟩ => ⟨S_, .f32⟩
  | .hbm, ⟨33, _⟩ => ⟨S33554432, .f32⟩
  | .hbm, ⟨34, _⟩ => ⟨S33554432, .f32⟩
  | .hbm, ⟨35, _⟩ => ⟨S32x1024x1024, .f32⟩
  | .local _ .vmem, ⟨0, _⟩ => ⟨S3x32x8192, .f32⟩
  | .local _ .vmem, ⟨1, _⟩ => ⟨S3x32x8192, .f32⟩
  | .local _ .vmem, ⟨2, _⟩ => ⟨S32x3x4, .f32⟩
  | .local _ .vmem, ⟨3, _⟩ => ⟨S32x8192, .i32⟩
  | .local _ .vmem, ⟨4, _⟩ => ⟨S32x8192, .i32⟩
  | .local _ .vmem, ⟨5, _⟩ => ⟨S32x8192, .f32⟩
  | .local _ .vmem, ⟨6, _⟩ => ⟨S32x8192, .f32⟩
  | _, _ => ⟨S32x200000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_call2_v0 : Ref sig .tc := ⟨.hbm, 32, rfl⟩
abbrev main_call2_v1 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x32x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x3x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  transposes_S32x200000x3_S3x32x200000_2_0_1 : S32x200000x3.Transposes [2, 0, 1] S3x32x200000
  pads_S3x32x200000_S3x32x204800_000_000_048000 : S3x32x200000.Pads (![0, 0, 0] : Fin 3 → Nat) ![0, 0, 4800] ![0, 0, 0] S3x32x204800
  h_S_ : 0 < S_.numel
  inb_S3x32x8192_S3x32x8192_0_0_0 : ∀ a, (![0, 0, 0] : Fin 3 → Nat) a + S3x32x8192.size a ≤ S3x32x8192.size a
  h_S3x32x8192 : 0 < S3x32x8192.numel
  shapeCasts_S3x32x8192_S3x32x8192 : S3x32x8192.ShapeCasts S3x32x8192
  inb_S32x3x4_S32x3x4_0_0_0 : ∀ a, (![0, 0, 0] : Fin 3 → Nat) a + S32x3x4.size a ≤ S32x3x4.size a
  h_S32x3x4 : 0 < S32x3x4.numel
  slices_S3x32x8192_o0_0_0_S1x32x8192 : S3x32x8192.Slices ![0, 0, 0] S1x32x8192
  shapeCasts_S1x32x8192_S32x8192 : S1x32x8192.ShapeCasts S32x8192
  slices_S3x32x8192_o1_0_0_S1x32x8192 : S3x32x8192.Slices ![1, 0, 0] S1x32x8192
  slices_S3x32x8192_o2_0_0_S1x32x8192 : S3x32x8192.Slices ![2, 0, 0] S1x32x8192
  slices_S32x3x4_o0_0_0_S32x1x1 : S32x3x4.Slices ![0, 0, 0] S32x1x1
  shapeCasts_S32x1x1_S32 : S32x1x1.ShapeCasts S32
  shapeCasts_S32_S32x1 : S32.ShapeCasts S32x1
  broadcasts_S32x1_S32x8192 : S32x1.Broadcasts S32x8192
  slices_S32x3x4_o0_0_1_S32x1x1 : S32x3x4.Slices ![0, 0, 1] S32x1x1
  slices_S32x3x4_o0_0_2_S32x1x1 : S32x3x4.Slices ![0, 0, 2] S32x1x1
  slices_S32x3x4_o0_0_3_S32x1x1 : S32x3x4.Slices ![0, 0, 3] S32x1x1
  slices_S32x3x4_o0_1_0_S32x1x1 : S32x3x4.Slices ![0, 1, 0] S32x1x1
  slices_S32x3x4_o0_1_1_S32x1x1 : S32x3x4.Slices ![0, 1, 1] S32x1x1
  slices_S32x3x4_o0_1_2_S32x1x1 : S32x3x4.Slices ![0, 1, 2] S32x1x1
  slices_S32x3x4_o0_1_3_S32x1x1 : S32x3x4.Slices ![0, 1, 3] S32x1x1
  slices_S32x3x4_o0_2_0_S32x1x1 : S32x3x4.Slices ![0, 2, 0] S32x1x1
  slices_S32x3x4_o0_2_1_S32x1x1 : S32x3x4.Slices ![0, 2, 1] S32x1x1
  slices_S32x3x4_o0_2_2_S32x1x1 : S32x3x4.Slices ![0, 2, 2] S32x1x1
  slices_S32x3x4_o0_2_3_S32x1x1 : S32x3x4.Slices ![0, 2, 3] S32x1x1
  iota_S32x1_d0_w32 : S32x1.Iotas .tc 32 [0]
  iota_S32x8192_d1_w32 : S32x8192.Iotas .tc 32 [1]
  inb_S32x8192_S32x8192_0_0 : ∀ a, (![0, 0] : Fin 2 → Nat) a + S32x8192.size a ≤ S32x8192.size a
  h_S32x8192 : 0 < S32x8192.numel
  shapeCasts_S32x204800_S6553600 : S32x204800.ShapeCasts S6553600
  bcast_S_S33554432 : S_.BroadcastsInDim S33554432 (![] : Fin 0 → Fin S33554432.rank)
  bcast_S6553600_S6553600x1_0 : S6553600.BroadcastsInDim S6553600x1 (![0] : Fin 1 → Fin S6553600x1.rank)
  bcast_S33554432_S33554432x1_0 : S33554432.BroadcastsInDim S33554432x1 (![0] : Fin 1 → Fin S33554432x1.rank)
  shapeCasts_S33554432_S32x1024x1024 : S33554432.ShapeCasts S32x1024x1024
  scatter_S33554432_S6553600x1_S6553600_n_0_0_1_wf : ScatterDims.WF S33554432 S6553600x1 S6553600 [] [0] [0] 1
  gather_S6553600_S33554432x1_S33554432_n_0_n_n_0_1_1_wf : GatherDims.WF S6553600 S33554432x1 S33554432 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x32x8192.size a ≤ S3x32x204800.size a
  hwx0_0 : ∀ i : grid0.Coords, EltTy.bits .f32 = 32 ∨ (Rect.block (s := S3x32x204800) S3x32x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x3x4.size a ≤ S32x3x4.size a
  hwx0_1 : ∀ i : grid0.Coords, EltTy.bits .f32 = 32 ∨ (Rect.block (s := S32x3x4) S32x3x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S32x8192.size a ≤ S32x204800.size a
  hwx0_2 : ∀ i : grid0.Coords, EltTy.bits .i32 = 32 ∨ (Rect.block (s := S32x204800) S32x8192.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x8192.size a ≤ S32x204800.size a
  hwx0_3 : ∀ i : grid0.Coords, EltTy.bits .f32 = 32 ∨ (Rect.block (s := S32x204800) S32x8192.size (cc0_transform_3 i) (hinb0_3 i)).WholeWords (EltTy.packing .f32)

variable [Facts₀]

def scatter_S33554432_S6553600x1_S6553600_n_0_0_1 : ScatterDims S33554432 S6553600x1 S6553600 where
  updateWindowDims := []
  insertedWindowDims := [0]
  scatterDimsToOperandDims := [0]
  indexVectorDim := 1
  wf := scatter_S33554432_S6553600x1_S6553600_n_0_0_1_wf
def gather_S6553600_S33554432x1_S33554432_n_0_n_n_0_1_1 : GatherDims S6553600 S33554432x1 S33554432 where
  offsetDims := []
  collapsedSliceDims := [0]
  operandBatchingDims := []
  startIndicesBatchingDims := []
  startIndexMap := [0]
  indexVectorDim := 1
  sliceSizes := ![1]
  wf := gather_S6553600_S33554432x1_S33554432_n_0_n_n_0_1_1_wf

abbrev win0_0 : Pipeline.Window sig grid0 :=
  Pipeline.Window.ofSpec (Memref.whole main_v1) S3x32x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x3x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S32x8192.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S32x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x200000x3 : Shape := ⟨3, ![32, 200000, 3]⟩
abbrev S32x3x4 : Shape := ⟨3, ![32, 3, 4]⟩
abbrev S_ : Shape := ⟨0, ![]⟩
abbrev S32x200000x1 : Shape := ⟨3, ![32, 200000, 1]⟩
abbrev S32x200000x4 : Shape := ⟨3, ![32, 200000, 4]⟩
abbrev S32x200000 : Shape := ⟨2, ![32, 200000]⟩
abbrev S32 : Shape := ⟨1, ![32]⟩
abbrev S32x1 : Shape := ⟨2, ![32, 1]⟩
abbrev S6400000 : Shape := ⟨1, ![6400000]⟩
abbrev S33554432 : Shape := ⟨1, ![33554432]⟩
abbrev S6400000x1 : Shape := ⟨2, ![6400000, 1]⟩
abbrev S33554432x1 : Shape := ⟨2, ![33554432, 1]⟩
abbrev S32x1024x1024 : Shape := ⟨3, ![32, 1024, 1024]⟩

abbrev nBuf : Space → Nat
  | .hbm => 92
  | .vmem => 0
  | .smem => 0
  | _ => 0

abbrev bufTy : (tb : Table) → Fin (tcTables nBuf tb) → BufTy
  | .hbm, ⟨0, _⟩ => ⟨S32x200000x3, .f32⟩
  | .hbm, ⟨1, _⟩ => ⟨S32x3x4, .f32⟩
  | .hbm, ⟨2, _⟩ => ⟨S_, .f32⟩
  | .hbm, ⟨3, _⟩ => ⟨S32x200000x1, .f32⟩
  | .hbm, ⟨4, _⟩ => ⟨S32x200000x4, .f32⟩
  | .hbm, ⟨5, _⟩ => ⟨S32x200000x3, .f32⟩
  | .hbm, ⟨6, _⟩ => ⟨S_, .f32⟩
  | .hbm, ⟨7, _⟩ => ⟨S32x200000x3, .f32⟩
  | .hbm, ⟨8, _⟩ => ⟨S32x200000x3, .f32⟩
  | .hbm, ⟨9, _⟩ => ⟨S32x200000x1, .f32⟩
  | .hbm, ⟨10, _⟩ => ⟨S32x200000, .f32⟩
  | .hbm, ⟨11, _⟩ => ⟨S_, .f32⟩
  | .hbm, ⟨12, _⟩ => ⟨S32x200000, .f32⟩
  | .hbm, ⟨13, _⟩ => ⟨S32x200000, .f32⟩
  | .hbm, ⟨14, _⟩ => ⟨S_, .f32⟩
  | .hbm, ⟨15, _⟩ => ⟨S32x200000, .f32⟩
  | .hbm, ⟨16, _⟩ => ⟨S32x200000, .f32⟩
  | .hbm, ⟨17, _⟩ => ⟨S_, .f32⟩
  | .hbm, ⟨18, _⟩ => ⟨S32x200000, .f32⟩
  | .hbm, ⟨19, _⟩ => ⟨S32x200000, .f32⟩
  | .hbm, ⟨20, _⟩ => ⟨S_, .f32⟩
  | .hbm, ⟨21, _⟩ => ⟨S_, .i32⟩
  | .hbm, ⟨22, _⟩ => ⟨S_, .f32⟩
  | .hbm, ⟨23, _⟩ => ⟨S32x200000, .f32⟩
  | .hbm, ⟨24, _⟩ => ⟨S32x200000, .f32⟩
  | .hbm, ⟨25, _⟩ => ⟨S_, .f32⟩
  | .hbm, ⟨26, _⟩ => ⟨S32x200000, .f32⟩
  | .hbm, ⟨27, _⟩ => ⟨S32x200000, .f32⟩
  | .hbm, ⟨28, _⟩ => ⟨S32x200000x1, .f32⟩
  | .hbm, ⟨29, _⟩ => ⟨S32x200000, .f32⟩
  | .hbm, ⟨30, _⟩ => ⟨S_, .f32⟩
  | .hbm, ⟨31, _⟩ => ⟨S32x200000, .f32⟩
  | .hbm, ⟨32, _⟩ => ⟨S32x200000, .f32⟩
  | .hbm, ⟨33, _⟩ => ⟨S_, .f32⟩
  | .hbm, ⟨34, _⟩ => ⟨S32x200000, .f32⟩
  | .hbm, ⟨35, _⟩ => ⟨S32x200000, .f32⟩
  | .hbm, ⟨36, _⟩ => ⟨S_, .f32⟩
  | .hbm, ⟨37, _⟩ => ⟨S32x200000, .f32⟩
  | .hbm, ⟨38, _⟩ => ⟨S32x200000, .f32⟩
  | .hbm, ⟨39, _⟩ => ⟨S_, .f32⟩
  | .hbm, ⟨40, _⟩ => ⟨S_, .i32⟩
  | .hbm, ⟨41, _⟩ => ⟨S_, .f32⟩
  | .hbm, ⟨42, _⟩ => ⟨S32x200000, .f32⟩
  | .hbm, ⟨43, _⟩ => ⟨S32x200000, .f32⟩
  | .hbm, ⟨44, _⟩ => ⟨S_, .f32⟩
  | .hbm, ⟨45, _⟩ => ⟨S32x200000, .f32⟩
  | .hbm, ⟨46, _⟩ => ⟨S32x200000, .f32⟩
  | .hbm, ⟨47, _⟩ => ⟨S32x200000, .f32⟩
  | .hbm, ⟨48, _⟩ => ⟨S32x200000, .i32⟩
  | .hbm, ⟨49, _⟩ => ⟨S32x200000, .f32⟩
  | .hbm, ⟨50, _⟩ => ⟨S32x200000, .i32⟩
  | .hbm, ⟨51, _⟩ => ⟨S32x200000x1, .f32⟩
  | .hbm, ⟨52, _⟩ => ⟨S32x200000, .f32⟩
  | .hbm, ⟨53, _⟩ => ⟨S32, .i32⟩
  | .hbm, ⟨54, _⟩ => ⟨S32x1, .i32⟩
  | .hbm, ⟨55, _⟩ => ⟨S_, .i32⟩
  | .hbm, ⟨56, _⟩ => ⟨S32x1, .i32⟩
  | .hbm, ⟨57, _⟩ => ⟨S32x1, .i32⟩
  | .hbm, ⟨58, _⟩ => ⟨S_, .i32⟩
  | .hbm, ⟨59, _⟩ => ⟨S32x200000, .i32⟩
  | .hbm, ⟨60, _⟩ => ⟨S32x200000, .i32⟩
  | .hbm, ⟨61, _⟩ => ⟨S32x200000, .i32⟩
  | .hbm, ⟨62, _⟩ => ⟨S32x200000, .i32⟩
  | .hbm, ⟨63, _⟩ => ⟨S32x200000, .i32⟩
  | .hbm, ⟨64, _⟩ => ⟨S6400000, .i32⟩
  | .hbm, ⟨65, _⟩ => ⟨S6400000, .i32⟩
  | .hbm, ⟨66, _⟩ => ⟨S_, .i32⟩
  | .hbm, ⟨67, _⟩ => ⟨S33554432, .i32⟩
  | .hbm, ⟨68, _⟩ => ⟨S6400000x1, .i32⟩
  | .hbm, ⟨69, _⟩ => ⟨S33554432, .i32⟩
  | .hbm, ⟨70, _⟩ => ⟨S_, .i32⟩
  | .hbm, ⟨71, _⟩ => ⟨S33554432, .i32⟩
  | .hbm, ⟨72, _⟩ => ⟨S33554432, .i1⟩
  | .hbm, ⟨73, _⟩ => ⟨S_, .i32⟩
  | .hbm, ⟨74, _⟩ => ⟨S_, .i32⟩
  | .hbm, ⟨75, _⟩ => ⟨S33554432, .i32⟩
  | .hbm, ⟨76, _⟩ => ⟨S33554432, .i32⟩
  | .hbm, ⟨77, _⟩ => ⟨S6400000, .f32⟩
  | .hbm, ⟨78, _⟩ => ⟨S_, .i32⟩
  | .hbm, ⟨79, _⟩ => ⟨S33554432, .i32⟩
  | .hbm, ⟨80, _⟩ => ⟨S33554432, .i1⟩
  | .hbm, ⟨81, _⟩ => ⟨S_, .i32⟩
  | .hbm, ⟨82, _⟩ => ⟨S33554432, .i32⟩
  | .hbm, ⟨83, _⟩ => ⟨S33554432, .i32⟩
  | .hbm, ⟨84, _⟩ => ⟨S33554432, .i32⟩
  | .hbm, ⟨85, _⟩ => ⟨S33554432x1, .i32⟩
  | .hbm, ⟨86, _⟩ => ⟨S33554432, .f32⟩
  | .hbm, ⟨87, _⟩ => ⟨S_, .f32⟩
  | .hbm, ⟨88, _⟩ => ⟨S_, .f32⟩
  | .hbm, ⟨89, _⟩ => ⟨S33554432, .f32⟩
  | .hbm, ⟨90, _⟩ => ⟨S33554432, .f32⟩
  | .hbm, ⟨91, _⟩ => ⟨S32x1024x1024, .f32⟩
  | _, _ => ⟨S32x200000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_5 : Ref sig .tc := ⟨.hbm, 30, rfl⟩
abbrev main_v16 : Ref sig .tc := ⟨.hbm, 31, rfl⟩
abbrev main_v17 : Ref sig .tc := ⟨.hbm, 32, rfl⟩
abbrev main_cst_6 : Ref sig .tc := ⟨.hbm, 33, rfl⟩
abbrev main_v18 : Ref sig .tc := ⟨.hbm, 34, rfl⟩
abbrev main_v19 : Ref sig .tc := ⟨.hbm, 35, rfl⟩
abbrev main_cst_7 : Ref sig .tc := ⟨.hbm, 36, rfl⟩
abbrev main_v20 : Ref sig .tc := ⟨.hbm, 37, rfl⟩
abbrev main_v21 : Ref sig .tc := ⟨.hbm, 38, rfl⟩
abbrev main_cst_8 : Ref sig .tc := ⟨.hbm, 39, rfl⟩
abbrev main_c_9 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_10 : Ref sig .tc := ⟨.hbm, 55, rfl⟩
abbrev main_v31 : Ref sig .tc := ⟨.hbm, 56, rfl⟩
abbrev main_v32 : Ref sig .tc := ⟨.hbm, 57, rfl⟩
abbrev main_c_11 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_12 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_13 : Ref sig .tc := ⟨.hbm, 70, rfl⟩
abbrev main_v43 : Ref sig .tc := ⟨.hbm, 71, rfl⟩
abbrev main_v44 : Ref sig .tc := ⟨.hbm, 72, rfl⟩
abbrev main_c_14 : Ref sig .tc := ⟨.hbm, 73, rfl⟩
abbrev main_call2_v0 : Ref sig .tc := ⟨.hbm, 74, rfl⟩
abbrev main_call2_v1 : Ref sig .tc := ⟨.hbm, 75, rfl⟩
abbrev main_v45 : Ref sig .tc := ⟨.hbm, 76, rfl⟩
abbrev main_v46 : Ref sig .tc := ⟨.hbm, 77, rfl⟩
abbrev main_c_15 : Ref sig .tc := ⟨.hbm, 78, rfl⟩
abbrev main_v47 : Ref sig .tc := ⟨.hbm, 79, rfl⟩
abbrev main_v48 : Ref sig .tc := ⟨.hbm, 80, rfl⟩
abbrev main_c_16 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_17 : Ref sig .tc := ⟨.hbm, 87, rfl⟩
abbrev main_call3_v0 : Ref sig .tc := ⟨.hbm, 88, rfl⟩
abbrev main_call3_v1 : Ref sig .tc := ⟨.hbm, 89, rfl⟩
abbrev main_v54 : Ref sig .tc := ⟨.hbm, 90, rfl⟩
abbrev main_v55 : Ref sig .tc := ⟨.hbm, 91, rfl⟩

abbrev nD : Nat := 1
abbrev τ : Topo := Topo.v7x

variable {F : FTy → Type} [FloatOps F]

class Facts₀ : Prop where
  bcast_S_S32x200000x1 : S_.BroadcastsInDim S32x200000x1 (![] : Fin 0 → Fin S32x200000x1.rank)
  concatenates_S32x200000x3_S32x200000x1_S32x200000x4_d2 : Shape.Concatenates [S32x200000x3, S32x200000x1] S32x200000x4 2
  bcast_S_S32x200000x3 : S_.BroadcastsInDim S32x200000x3 (![] : Fin 0 → Fin S32x200000x3.rank)
  slices_S32x200000x3_S32x200000x1_0_0_0 : S32x200000x3.Slices ![0, 0, 0] S32x200000x1
  shapeCasts_S32x200000x1_S32x200000 : S32x200000x1.ShapeCasts S32x200000
  bcast_S_S32x200000 : S_.BroadcastsInDim S32x200000 (![] : Fin 0 → Fin S32x200000.rank)
  slices_S32x200000x3_S32x200000x1_0_0_1 : S32x200000x3.Slices ![0, 0, 1] S32x200000x1
  slices_S32x200000x3_S32x200000x1_0_0_2 : S32x200000x3.Slices ![0, 0, 2] S32x200000x1
  bcast_S32_S32x1_0 : S32.BroadcastsInDim S32x1 (![0] : Fin 1 → Fin S32x1.rank)
  bcast_S_S32x1 : S_.BroadcastsInDim S32x1 (![] : Fin 0 → Fin S32x1.rank)
  bcast_S32x1_S32x200000_0_1 : S32x1.BroadcastsInDim S32x200000 (![0, 1] : Fin 2 → Fin S32x200000.rank)
  shapeCasts_S32x200000_S6400000 : S32x200000.ShapeCasts S6400000
  bcast_S_S33554432 : S_.BroadcastsInDim S33554432 (![] : Fin 0 → Fin S33554432.rank)
  bcast_S6400000_S6400000x1_0 : S6400000.BroadcastsInDim S6400000x1 (![0] : Fin 1 → Fin S6400000x1.rank)
  bcast_S33554432_S33554432x1_0 : S33554432.BroadcastsInDim S33554432x1 (![0] : Fin 1 → Fin S33554432x1.rank)
  shapeCasts_S33554432_S32x1024x1024 : S33554432.ShapeCasts S32x1024x1024
  dot_S32x200000x4_S32x3x4_S32x200000x3_2_2_1_1_0_0_wf : DotDims.WF S32x200000x4 S32x3x4 S32x200000x3 [2] [2] [1] [1] [0] [0]
  scatter_S33554432_S6400000x1_S6400000_n_0_0_1_wf : ScatterDims.WF S33554432 S6400000x1 S6400000 [] [0] [0] 1
  gather_S6400000_S33554432x1_S33554432_n_0_n_n_0_1_1_wf : GatherDims.WF S6400000 S33554432x1 S33554432 [] [0] [] [0] [] 1 ![1]

variable [Facts₀]

def dot_S32x200000x4_S32x3x4_S32x200000x3_2_2_1_1_0_0 : DotDims S32x200000x4 S32x3x4 S32x200000x3 where
  lhsContracting := [2]
  rhsContracting := [2]
  lhsNonContracting := [1]
  rhsNonContracting := [1]
  lhsBatch := [0]
  rhsBatch := [0]
  wf := dot_S32x200000x4_S32x3x4_S32x200000x3_2_2_1_1_0_0_wf
def scatter_S33554432_S6400000x1_S6400000_n_0_0_1 : ScatterDims S33554432 S6400000x1 S6400000 where
  updateWindowDims := []
  insertedWindowDims := [0]
  scatterDimsToOperandDims := [0]
  indexVectorDim := 1
  wf := scatter_S33554432_S6400000x1_S6400000_n_0_0_1_wf
def gather_S6400000_S33554432x1_S33554432_n_0_n_n_0_1_1 : GatherDims S6400000 S33554432x1 S33554432 where
  offsetDims := []
  collapsedSliceDims := [0]
  operandBatchingDims := []
  startIndicesBatchingDims := []
  startIndexMap := [0]
  indexVectorDim := 1
  sliceSizes := ![1]
  wf := gather_S6400000_S33554432x1_S33554432_n_0_n_n_0_1_1_wf

class Facts : Prop extends Facts₀ where

variable [Facts]
-- ==== Proof.LibLastWriteWins.lean ====
/-
  Last write wins, as a scatter of positions followed by a gather.

  A table of `N` cells receives `n` writes: write `j` names its cell by a 32-bit word `p j`, read
  signed, and is dropped when the word is negative or not below `N`. "Which write reached cell `s`
  last" is computed without any ordered store: every write scatters its own POSITION `j` into its
  cell under `max`, from a start value below every position (the least signed word), so the cell ends
  holding the largest position that named it, or the start value when none did. A cell that holds a
  position then gathers that write's payload `z j`; an untouched cell takes a default.

  This file states that reading (`pick_none`, `pick_some`) and its consequence `pick_transfer`: two
  such write sequences of different lengths, one embedded in the other by a strictly increasing map
  that keeps cells and payloads and leaves only dropped writes outside its range, fill every cell alike.
-/
import Idealize.ShloMosaic.PureOps
import Idealize.ShloMosaic.Lib.ValueIdx
import Idealize.ShloMosaic.Lib.SortFacts
import Idealize.ShloMosaic.Lib.StableHlo.Predicate

noncomputable section

namespace Cert.LastWriteWins

open Idealize.ShloMosaic Idealize.ShloMosaic.ValueIdx

/-- Positions below `2^31` are non-negative signed words equal to themselves. -/
private theorem toInt_ofNat_pos {j : Nat} (h : j < 2 ^ 31) : (BitVec.ofNat 32 j).toInt = (j : Int) := by
  rw [BitVec.toInt_eq_toNat_cond, BitVec.toNat_ofNat]
  have : j % 2 ^ 32 = j := Nat.mod_eq_of_lt (by omega)
  rw [this]; split <;> omega

/-- Signed `max` of two words is the `max` of their signed readings. -/
private theorem toInt_maxsi (a b : BitVec 32) : (IntOp.maxsi a b).toInt = max a.toInt b.toInt := by
  unfold IntOp.maxsi
  by_cases h : b.slt a = true
  · rw [if_pos h]; rw [BitVec.slt_iff_toInt_lt] at h; omega
  · rw [if_neg h]; rw [BitVec.slt_iff_toInt_lt] at h; omega

private theorem toInt_min32 : (2147483648#32 : BitVec 32).toInt = -2147483648 := by decide

/-- A fold of conditional signed maxima lies above `m` exactly when the start does or some listed
    entry that meets the condition does. -/
private theorem le_foldl_maxsi {κ : Type} (c : κ → Prop) [DecidablePred c] (u : κ → BitVec 32) (m : Int)
    (l : List κ) (x : BitVec 32) :
    m ≤ (l.foldl (fun acc k => if c k then IntOp.maxsi acc (u k) else acc) x).toInt
      ↔ m ≤ x.toInt ∨ ∃ k ∈ l, c k ∧ m ≤ (u k).toInt := by
  induction l generalizing x with
  | nil => simp
  | cons k l ih =>
    rw [List.foldl_cons, ih]
    by_cases hc : c k
    · rw [if_pos hc, toInt_maxsi]
      constructor
      · rintro (h | ⟨k', hk', h⟩)
        · rcases le_max_iff.1 h with h | h
          · exact Or.inl h
          · exact Or.inr ⟨k, List.mem_cons_self, hc, h⟩
        · exact Or.inr ⟨k', List.mem_cons_of_mem _ hk', h⟩
      · rintro (h | ⟨k', hk', h⟩)
        · exact Or.inl (le_max_iff.2 (Or.inl h))
        · rcases List.mem_cons.1 hk' with rfl | hk'
          · exact Or.inl (le_max_iff.2 (Or.inr h.2))
          · exact Or.inr ⟨k', hk', h⟩
    · rw [if_neg hc]
      constructor
      · rintro (h | ⟨k', hk', h⟩)
        · exact Or.inl h
        · exact Or.inr ⟨k', List.mem_cons_of_mem _ hk', h⟩
      · rintro (h | ⟨k', hk', h⟩)
        · exact Or.inl h
        · rcases List.mem_cons.1 hk' with rfl | hk'
          · exact absurd h.1 hc
          · exact Or.inr ⟨k', hk', h⟩

/-- "At least zero", as a bit, on the signed reading. -/
private theorem cmpi_sge_zero (w : BitVec 32) : IntOp.cmpi .sge w 0#32 = if 0 ≤ w.toInt then 1#1 else 0#1 := by
  show BitVec.ofBool ((0#32).sle w) = _
  by_cases h : 0 ≤ w.toInt
  · have hs : (0#32).sle w = true := by rw [BitVec.sle_iff_toInt_le]; simpa using h
    rw [hs, if_pos h]; rfl
  · have hs : (0#32).sle w = false := by
      rw [Bool.eq_false_iff]; intro hh; rw [BitVec.sle_iff_toInt_le] at hh; exact h (by simpa using hh)
    rw [hs, if_neg h]; rfl

/-- "Below zero", as a bit, on the signed reading. -/
private theorem cmpi_slt_zero (w : BitVec 32) : IntOp.cmpi .slt w 0#32 = if w.toInt < 0 then 1#1 else 0#1 := by
  show BitVec.ofBool (w.slt 0#32) = _
  by_cases h : w.toInt < 0
  · have hs : w.slt 0#32 = true := by rw [BitVec.slt_iff_toInt_lt]; simpa using h
    rw [hs, if_pos h]; rfl
  · have hs : w.slt 0#32 = false := by
      rw [Bool.eq_false_iff]; intro hh; rw [BitVec.slt_iff_toInt_lt] at hh; exact h (by simpa using hh)
    rw [hs, if_neg h]; rfl

/-- A left fold of function updates, read at one argument, is a fold of values. -/
private theorem foldl_apply {κ ι α : Type} (step : (ι → α) → κ → (ι → α)) (step' : α → κ → α) (i : ι)
    (h : ∀ r k, step r k i = step' (r i) k) (l : List κ) (x : ι → α) :
    l.foldl step x i = l.foldl step' (x i) := by
  induction l generalizing x with
  | nil => rfl
  | cons k l ih => rw [List.foldl_cons, List.foldl_cons, ih, h]

/-- The rank-1 index at a coordinate, in its two spellings. -/
private theorem ix1_eq_ofFin {n : Nat} (a : Fin n) : (ix1 a : (⟨1, ![n]⟩ : Shape).Idx) = Shape.Idx.ofFin a := by
  funext d; match d with | ⟨0, _⟩ => rfl

/-- The cell a start word names in a table of `N` cells: the word read signed, kept when it is inside
    the table, dropped (`none`) when it is negative or past the end. -/
def land (N : Nat) (v : BitVec 32) : Option (Fin N) :=
  if h : 0 ≤ v.toInt ∧ v.toInt < (N : Int) then some ⟨v.toInt.toNat, by omega⟩ else none

open Idealize.ShloMosaic.StableHlo.Predicate in
private theorem resultIdx_iff {N n : Nat} (sd : ScatterDims ⟨1, ![N]⟩ ⟨2, ![n, 1]⟩ ⟨1, ![n]⟩)
    (hupd : sd.updateWindowDims = []) (hins : sd.insertedWindowDims = [0])
    (hsdo : sd.scatterDimsToOperandDims = [0]) (hsiv : sd.indexVectorDim = 1)
    (j : Fin n) (idx : IVec ⟨2, ![n, 1]⟩ 32) (s : Fin N) :
    sd.resultIdx? (ix1 j) idx = some (ix1 s) ↔ land N (idx (ixP j)) = some s := by
  have hm : (0 : Fin 1) ∈ sd.scatterDimsToOperandDims := by rw [hsdo]; exact List.mem_singleton.mpr rfl
  have hk : (0 : Fin 1) ∉ sd.sKept := by
    intro h
    have h2 := (List.mem_filter.1 h).2
    rw [hins] at h2
    simp at h2
  have hsi : ∀ c, sd.siIdx (ix1 j) c = ixP j := by
    intro c
    funext b
    match b with
    | ⟨0, _⟩ =>
      unfold ScatterDims.siIdx
      rw [dif_neg (by rw [hsiv]; simp)]
      unfold ScatterDims.siCoord
      apply Fin.ext
      simp only [Fin.val_cast]
      have e : ∀ X : Fin 1, ((ix1 j : (⟨1, ![n]⟩ : Shape).Idx) X).val = j.val := fun X => by
        have hX : X = 0 := Subsingleton.elim _ _
        subst hX; rfl
      exact e _
    | ⟨1, _⟩ =>
      unfold ScatterDims.siIdx
      rw [dif_pos (by rw [hsiv])]
      apply Fin.ext
      have := c.isLt
      simp only [hsdo, List.length_singleton] at this
      show c.val = 0
      omega
  have hstart : ∀ a, sd.start (ix1 j) idx a = (idx (ixP j)).toInt := by
    intro a
    have ha0 : a = 0 := Subsingleton.elim _ _
    subst ha0
    unfold ScatterDims.start
    rw [dif_pos hm, hsi]
  have hwin : ∀ a, sd.window (ix1 j) a = 0 := by
    intro a
    have ha0 : a = 0 := Subsingleton.elim _ _
    subst ha0
    unfold ScatterDims.window
    rw [dif_neg hk]
  unfold ScatterDims.resultIdx? land
  simp only [hstart, hwin]
  by_cases h : 0 ≤ (idx (ixP j)).toInt ∧ (idx (ixP j)).toInt < (N : Int)
  · have h' : ∀ a : Fin 1, 0 ≤ (idx (ixP j)).toInt + ((0 : Nat) : Int) ∧ (idx (ixP j)).toInt + ((0 : Nat) : Int) < ((![N] a : Nat) : Int) := by
      intro a
      have ha0 : a = 0 := Subsingleton.elim _ _
      subst ha0
      change 0 ≤ (idx (ixP j)).toInt + ((0 : Nat) : Int) ∧ (idx (ixP j)).toInt + ((0 : Nat) : Int) < ((N : Nat) : Int)
      omega
    rw [dif_pos h', dif_pos h]
    constructor
    · intro e
      have e2 := congrArg Fin.val (congrFun (Option.some.inj e) 0)
      apply congrArg some; apply Fin.ext
      change ((idx (ixP j)).toInt + ((0 : Nat) : Int)).toNat = s.val at e2
      change (idx (ixP j)).toInt.toNat = s.val
      omega
    · intro e
      have e2 := congrArg Fin.val (Option.some.inj e)
      change (idx (ixP j)).toInt.toNat = s.val at e2
      apply congrArg some
      funext a
      have ha0 : a = 0 := Subsingleton.elim _ _
      subst ha0
      apply Fin.ext
      change ((idx (ixP j)).toInt + ((0 : Nat) : Int)).toNat = s.val
      omega
  · have h' : ¬ ∀ a : Fin 1, 0 ≤ (idx (ixP j)).toInt + ((0 : Nat) : Int) ∧ (idx (ixP j)).toInt + ((0 : Nat) : Int) < ((![N] a : Nat) : Int) := by
      intro hh
      have := hh 0
      change 0 ≤ (idx (ixP j)).toInt + ((0 : Nat) : Int) ∧ (idx (ixP j)).toInt + ((0 : Nat) : Int) < ((N : Nat) : Int) at this
      exact h (by omega)
    rw [dif_neg h', dif_neg h]
    exact ⟨fun e => (nomatch e), fun e => (nomatch e)⟩

section

variable {α : Type} {N n : Nat}
  (sd : ScatterDims ⟨1, ![N]⟩ ⟨2, ![n, 1]⟩ ⟨1, ![n]⟩)
  (gd : GatherDims ⟨1, ![n]⟩ ⟨2, ![N, 1]⟩ ⟨1, ![N]⟩)
  (hb0 : (⟨0, ![]⟩ : Shape).BroadcastsInDim ⟨1, ![N]⟩ (![] : Fin 0 → Fin 1))
  (hb1 : (⟨1, ![n]⟩ : Shape).BroadcastsInDim ⟨2, ![n, 1]⟩ (![0] : Fin 1 → Fin 2))
  (hb2 : (⟨1, ![N]⟩ : Shape).BroadcastsInDim ⟨2, ![N, 1]⟩ (![0] : Fin 1 → Fin 2))

/-- Per cell, the largest position among the writes that name it (the least signed word where none
    does): the positions `0 … n-1` scattered under signed `max` at the cells `p` names. -/
def winners (p : IVec ⟨1, ![n]⟩ 32) : IVec ⟨1, ![N]⟩ 32 :=
  Host.scatter sd IntOp.maxsi (broadcastInDim ⟨1, ![N]⟩ ![] hb0 (constantI ⟨0, ![]⟩ 32 2147483648#32))
    (broadcastInDim ⟨2, ![n, 1]⟩ ![0] hb1 p) (iotaInDim ⟨1, ![n]⟩ 32 0)

/-- The winners clipped below at zero (an untouched cell then points at position 0). -/
def clipped (p : IVec ⟨1, ![n]⟩ 32) : IVec ⟨1, ![N]⟩ 32 :=
  maxsi (broadcastInDim ⟨1, ![N]⟩ ![] hb0 (id (constantI ⟨0, ![]⟩ 32 0#32))) (winners sd hb0 hb1 p)

/-- Each cell's content after all writes: the payload `z` of the last write that named the cell,
    `zero` for a cell no write named. `nw` is the number of writes as a word (the wrap-around term of
    a negative index, never taken). -/
def pick (nw : BitVec 32) (p : IVec ⟨1, ![n]⟩ 32) (z : (⟨1, ![n]⟩ : Shape).Idx → α)
    (zero : (⟨0, ![]⟩ : Shape).Idx → α) : (⟨1, ![N]⟩ : Shape).Idx → α :=
  select (cmpi .sge (winners sd hb0 hb1 p) (broadcastInDim ⟨1, ![N]⟩ ![] hb0 (constantI ⟨0, ![]⟩ 32 0#32)))
    (Host.gather gd z (broadcastInDim ⟨2, ![N, 1]⟩ ![0] hb2
      (select (cmpi .slt (clipped sd hb0 hb1 p) (broadcastInDim ⟨1, ![N]⟩ ![] hb0 (constantI ⟨0, ![]⟩ 32 0#32)))
        (addi (clipped sd hb0 hb1 p) (broadcastInDim ⟨1, ![N]⟩ ![] hb0 (constantI ⟨0, ![]⟩ 32 nw)))
        (clipped sd hb0 hb1 p))))
    (broadcastInDim ⟨1, ![N]⟩ ![] hb0 zero)

open Idealize.ShloMosaic.StableHlo.Predicate in
/-- The winner of a cell, read signed, is at least `m` exactly when `m` is at most the least signed
    word or some write that names the cell has position at least `m`. -/
private theorem le_winners_iff (hupd : sd.updateWindowDims = []) (hins : sd.insertedWindowDims = [0])
    (hsdo : sd.scatterDimsToOperandDims = [0]) (hsiv : sd.indexVectorDim = 1) (hn : n < 2 ^ 31)
    (p : IVec ⟨1, ![n]⟩ 32) (s : Fin N) (m : Int) :
    m ≤ (winners sd hb0 hb1 p (ix1 s)).toInt
      ↔ m ≤ -2147483648 ∨ ∃ j : Fin n, land N (p (ix1 j)) = some s ∧ m ≤ (j.val : Int) := by
  unfold winners Host.scatter
  rw [foldl_apply _ (fun acc k =>
        if sd.resultIdx? ((⟨1, ![n]⟩ : Shape).rowMajor.symm k) (broadcastInDim ⟨2, ![n, 1]⟩ ![0] hb1 p) = some (ix1 s)
        then IntOp.maxsi acc (iotaInDim ⟨1, ![n]⟩ 32 0 ((⟨1, ![n]⟩ : Shape).rowMajor.symm k)) else acc) (ix1 s)]
  · rw [le_foldl_maxsi]
    have hx0 : (broadcastInDim ⟨1, ![N]⟩ ![] hb0 (constantI ⟨0, ![]⟩ 32 2147483648#32) (ix1 s)).toInt = -2147483648 :=
      toInt_min32
    rw [hx0]
    apply or_congr Iff.rfl
    constructor
    · rintro ⟨k, -, hg, hm⟩
      generalize (⟨1, ![n]⟩ : Shape).rowMajor.symm k = q at hg hm
      obtain ⟨j, rfl⟩ : ∃ j : Fin n, q = ix1 j := ⟨q 0, eq_ix1 q⟩
      refine ⟨j, ?_, ?_⟩
      · have := (resultIdx_iff sd hupd hins hsdo hsiv j _ s).1 hg
        rwa [bcast_col1, ← ix1_eq_ofFin] at this
      · have hi : (iotaInDim ⟨1, ![n]⟩ 32 0 (ix1 j)).toInt = (j.val : Int) :=
          toInt_ofNat_pos (j := j.val) (by have := j.isLt; omega)
        rwa [hi] at hm
    · rintro ⟨j, hl, hm⟩
      refine ⟨(⟨1, ![n]⟩ : Shape).rowMajor (ix1 j), List.mem_finRange _, ?_, ?_⟩
      · rw [Equiv.symm_apply_apply]
        apply (resultIdx_iff sd hupd hins hsdo hsiv j _ s).2
        rw [bcast_col1, ← ix1_eq_ofFin]; exact hl
      · rw [Equiv.symm_apply_apply]
        have hi : (iotaInDim ⟨1, ![n]⟩ 32 0 (ix1 j)).toInt = (j.val : Int) :=
          toInt_ofNat_pos (j := j.val) (by have := j.isLt; omega)
        rw [hi]; exact hm
  · intro r k
    generalize ScatterDims.resultIdx? sd _ _ = o
    cases o with
    | none => simp
    | some i =>
      by_cases hi : ix1 s = i
      · subst hi; simp
      · have hne : ¬ (some i = some (ix1 s)) := fun e => hi (Option.some.inj e).symm
        simp [hi, hne]

variable (hupd : sd.updateWindowDims = []) (hins : sd.insertedWindowDims = [0])
  (hsdo : sd.scatterDimsToOperandDims = [0]) (hsiv : sd.indexVectorDim = 1)
  (hcoll : gd.collapsedSliceDims = [0]) (hob : gd.operandBatchingDims = [])
  (hsim : gd.startIndexMap = [0]) (hgiv : gd.indexVectorDim = 1)

include hupd hins hsdo hsiv hcoll hob hsim hgiv

/-- A cell no write names takes the default. -/
theorem pick_none (hn : n < 2 ^ 31) (nw : BitVec 32) (p : IVec ⟨1, ![n]⟩ 32)
    (z : (⟨1, ![n]⟩ : Shape).Idx → α) (zero : (⟨0, ![]⟩ : Shape).Idx → α) (s : Fin N)
    (h : ∀ j : Fin n, land N (p (ix1 j)) ≠ some s) :
    pick sd gd hb0 hb1 hb2 nw p z zero (ix1 s) = zero (fun a => a.elim0) := by
  have hW : (winners sd hb0 hb1 p (ix1 s)).toInt ≤ -2147483648 := by
    rcases (le_winners_iff sd hb0 hb1 hupd hins hsdo hsiv hn p s _).1 (le_refl _) with h1 | ⟨j, hj, -⟩
    · exact h1
    · exact absurd hj (h j)
  unfold pick
  show Scalar.select (IntOp.cmpi .sge (winners sd hb0 hb1 p (ix1 s)) (0#32)) _ _ = _
  rw [cmpi_sge_zero, if_neg (by omega)]
  unfold Scalar.select
  rw [if_neg (by decide)]
  exact congrArg zero (funext fun a => a.elim0)

/-- A cell takes the payload of the last write that names it. -/
theorem pick_some (hn : n < 2 ^ 31) (nw : BitVec 32) (p : IVec ⟨1, ![n]⟩ 32)
    (z : (⟨1, ![n]⟩ : Shape).Idx → α) (zero : (⟨0, ![]⟩ : Shape).Idx → α) (s : Fin N) (j : Fin n)
    (hj : land N (p (ix1 j)) = some s) (hmax : ∀ j' : Fin n, land N (p (ix1 j')) = some s → j' ≤ j) :
    pick sd gd hb0 hb1 hb2 nw p z zero (ix1 s) = z (ix1 j) := by
  have hW : (winners sd hb0 hb1 p (ix1 s)).toInt = (j.val : Int) := by
    apply le_antisymm
    · rcases (le_winners_iff sd hb0 hb1 hupd hins hsdo hsiv hn p s _).1 (le_refl _) with h1 | ⟨j', hj', hle⟩
      · omega
      · have hjj : j'.val ≤ j.val := hmax j' hj'
        omega
    · exact (le_winners_iff sd hb0 hb1 hupd hins hsdo hsiv hn p s _).2 (Or.inr ⟨j, hj, le_refl _⟩)
  have hC : (clipped sd hb0 hb1 p (ix1 s)).toInt = (j.val : Int) := by
    show (IntOp.maxsi (0#32) (winners sd hb0 hb1 p (ix1 s))).toInt = _
    rw [toInt_maxsi, hW, BitVec.toInt_zero]
    omega
  have hjn := j.isLt
  unfold pick
  show Scalar.select (IntOp.cmpi .sge (winners sd hb0 hb1 p (ix1 s)) (0#32)) _ _ = _
  rw [cmpi_sge_zero, if_pos (by omega)]
  unfold Scalar.select
  rw [if_pos (by decide), ix1_eq_ofFin s, StableHlo.Predicate.gather_take gd hcoll hob hsim hgiv z _ s (by omega), ix1_eq_ofFin j]
  refine congrArg z (congrArg Shape.Idx.ofFin (Fin.ext ?_))
  rw [Fin.val_mk, StableHlo.Predicate.bcast_col1, ← ix1_eq_ofFin]
  have hsel : select (cmpi .slt (clipped sd hb0 hb1 p) (broadcastInDim ⟨1, ![N]⟩ ![] hb0 (constantI ⟨0, ![]⟩ 32 0#32)))
      (addi (clipped sd hb0 hb1 p) (broadcastInDim ⟨1, ![N]⟩ ![] hb0 (constantI ⟨0, ![]⟩ 32 nw)))
      (clipped sd hb0 hb1 p) (ix1 s) = clipped sd hb0 hb1 p (ix1 s) := by
    show Scalar.select (IntOp.cmpi .slt (clipped sd hb0 hb1 p (ix1 s)) (0#32)) _ _ = _
    rw [cmpi_slt_zero, if_neg (by omega)]
    unfold Scalar.select
    rw [if_neg (by decide)]
  rw [hsel, hC]
  omega

end

/-- Two write sequences fill every cell alike when the shorter embeds in the longer by a strictly
    increasing map that keeps each write's cell and payload, and every write of the longer outside
    the map's range is dropped. -/
theorem pick_transfer {α : Type} {N n n' : Nat}
    (sd : ScatterDims ⟨1, ![N]⟩ ⟨2, ![n, 1]⟩ ⟨1, ![n]⟩) (gd : GatherDims ⟨1, ![n]⟩ ⟨2, ![N, 1]⟩ ⟨1, ![N]⟩)
    (sd' : ScatterDims ⟨1, ![N]⟩ ⟨2, ![n', 1]⟩ ⟨1, ![n']⟩) (gd' : GatherDims ⟨1, ![n']⟩ ⟨2, ![N, 1]⟩ ⟨1, ![N]⟩)
    (hb0 : (⟨0, ![]⟩ : Shape).BroadcastsInDim ⟨1, ![N]⟩ (![] : Fin 0 → Fin 1))
    (hb1 : (⟨1, ![n]⟩ : Shape).BroadcastsInDim ⟨2, ![n, 1]⟩ (![0] : Fin 1 → Fin 2))
    (hb1' : (⟨1, ![n']⟩ : Shape).BroadcastsInDim ⟨2, ![n', 1]⟩ (![0] : Fin 1 → Fin 2))
    (hb2 : (⟨1, ![N]⟩ : Shape).BroadcastsInDim ⟨2, ![N, 1]⟩ (![0] : Fin 1 → Fin 2))
    (hupd : sd.updateWindowDims = []) (hins : sd.insertedWindowDims = [0])
    (hsdo : sd.scatterDimsToOperandDims = [0]) (hsiv : sd.indexVectorDim = 1)
    (hcoll : gd.collapsedSliceDims = [0]) (hob : gd.operandBatchingDims = [])
    (hsim : gd.startIndexMap = [0]) (hgiv : gd.indexVectorDim = 1)
    (hupd' : sd'.updateWindowDims = []) (hins' : sd'.insertedWindowDims = [0])
    (hsdo' : sd'.scatterDimsToOperandDims = [0]) (hsiv' : sd'.indexVectorDim = 1)
    (hcoll' : gd'.collapsedSliceDims = [0]) (hob' : gd'.operandBatchingDims = [])
    (hsim' : gd'.startIndexMap = [0]) (hgiv' : gd'.indexVectorDim = 1)
    (hn : n < 2 ^ 31) (hn' : n' < 2 ^ 31) (nw nw' : BitVec 32)
    (p : IVec ⟨1, ![n]⟩ 32) (p' : IVec ⟨1, ![n']⟩ 32)
    (z : (⟨1, ![n]⟩ : Shape).Idx → α) (z' : (⟨1, ![n']⟩ : Shape).Idx → α) (zero : (⟨0, ![]⟩ : Shape).Idx → α)
    (φ : Fin n → Fin n') (hφ : StrictMono φ)
    (hp : ∀ j : Fin n, p' (ix1 (φ j)) = p (ix1 j))
    (hout : ∀ i : Fin n', (∀ j : Fin n, φ j ≠ i) → land N (p' (ix1 i)) = none)
    (hz : ∀ j : Fin n, z' (ix1 (φ j)) = z (ix1 j)) (s : Fin N) :
    pick sd' gd' hb0 hb1' hb2 nw' p' z' zero (ix1 s) = pick sd gd hb0 hb1 hb2 nw p z zero (ix1 s) := by
  by_cases hex : ∃ j : Fin n, land N (p (ix1 j)) = some s
  · obtain ⟨j, hjmem, hjmax⟩ := Finset.exists_max_image
      (Finset.univ.filter fun j : Fin n => land N (p (ix1 j)) = some s) id
      (by obtain ⟨j0, h0⟩ := hex; exact ⟨j0, Finset.mem_filter.2 ⟨Finset.mem_univ _, h0⟩⟩)
    have hj : land N (p (ix1 j)) = some s := (Finset.mem_filter.1 hjmem).2
    have hmax : ∀ j' : Fin n, land N (p (ix1 j')) = some s → j' ≤ j :=
      fun j' h' => hjmax j' (Finset.mem_filter.2 ⟨Finset.mem_univ _, h'⟩)
    have hj' : land N (p' (ix1 (φ j))) = some s := by rw [hp]; exact hj
    have hmax' : ∀ i : Fin n', land N (p' (ix1 i)) = some s → i ≤ φ j := by
      intro i hi
      by_cases hr : ∃ j', φ j' = i
      · obtain ⟨j', rfl⟩ := hr
        rw [hp] at hi
        exact hφ.monotone (hmax j' hi)
      · rw [hout i (fun j' e => hr ⟨j', e⟩)] at hi
        cases hi
    rw [pick_some sd gd hb0 hb1 hb2 hupd hins hsdo hsiv hcoll hob hsim hgiv hn nw p z zero s j hj hmax,
      pick_some sd' gd' hb0 hb1' hb2 hupd' hins' hsdo' hsiv' hcoll' hob' hsim' hgiv' hn' nw' p' z' zero s (φ j) hj' hmax']
    exact hz j
  · have hnone : ∀ j : Fin n, land N (p (ix1 j)) ≠ some s := fun j h' => hex ⟨j, h'⟩
    have hnone' : ∀ i : Fin n', land N (p' (ix1 i)) ≠ some s := by
      intro i hi
      by_cases hr : ∃ j', φ j' = i
      · obtain ⟨j', rfl⟩ := hr
        rw [hp] at hi
        exact hnone j' hi
      · rw [hout i (fun j' e => hr ⟨j', e⟩)] at hi
        cases hi
    rw [pick_none sd gd hb0 hb1 hb2 hupd hins hsdo hsiv hcoll hob hsim hgiv hn nw p z zero s hnone,
      pick_none sd' gd' hb0 hb1' hb2 hupd' hins' hsdo' hsiv' hcoll' hob' hsim' hgiv' hn' nw' p' z' zero s hnone']

end Cert.LastWriteWins

end
-- ==== Proof.KernelTail.lean ====
/-
  The host operations after the projection kernel, read as one function of its two output arrays.

  After the region the program flattens the pixel array and the depth array to one axis, scatters
  each position into its pixel's cell under max (from the least word), tests each cell for a
  position, clips, gathers the depth at that position, puts zero in the cells no position reached,
  and reshapes to the depth map. Read stretch by stretch over an arbitrary valuation of the
  buffers, the result buffer holds the last-write-wins composite `pick` of the two flattened
  arrays, reshaped.
-/
import proofs.«128998_j8263517077853_1_alg».proof.Proof.FrameKernelIdeal
import proofs.«128998_j8263517077853_1_alg».proof.Proof.LibLastWriteWins
import Idealize.ShloMosaic.Lib.StableHlo.Run
import Idealize.ShloMosaic.Lib.Pipeline.FrameSuffix

set_option maxRecDepth 16384

noncomputable section

namespace Cert.KernelIdeal.Tail

open Cert.KernelIdeal Cert.KernelIdeal.Gen Cert.KernelIdeal.GenP Idealize.ShloMosaic Idealize.ShloMosaic.TcCoe
  Idealize.SL.Sem Idealize.ShloMosaic.StableHlo Cert.LastWriteWins

/-- Running two lists of host operations one after the other. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op ops ih => simp only [List.cons_append, after_cons, ih]

/-- Five stretches in a row. -/
theorem after_flatten5 {τ : Topo} {sig : RefSig} {Val : EltTy → Type} (a b c d e : List (HloOp τ sig Val)) (V : Valuation τ sig Val) :
    after (List.flatten [a, b, c, d, e]) V = after e (after d (after c (after b (after a V)))) := by
  simp only [List.flatten_cons, List.flatten_nil, List.append_nil, after_append]

variable {F : FTy → Type} [FloatOps F]

/-! ## First stretch: the flattenings, the scatter, the test for a position -/

theorem s1_v4 (W : Valuation τ sig (Elt F)) :
    after hostOps1 W (Proc.devRef .tc main_v4) = shapeCast S6553600 (W (Proc.devRef .tc main_v2_1)) shapeCasts_S32x204800_S6553600 := by
  unfold hostOps1; after_results; rfl

theorem s1_v8 (W : Valuation τ sig (Elt F)) :
    after hostOps1 W (Proc.devRef .tc main_v8)
      = winners scatter_S33554432_S6553600x1_S6553600_n_0_0_1 bcast_S_S33554432 bcast_S6553600_S6553600x1_0
          (shapeCast S6553600 (W (Proc.devRef .tc main_v2_0)) shapeCasts_S32x204800_S6553600) := by
  unfold hostOps1; after_results; rfl

theorem s1_v10 (W : Valuation τ sig (Elt F)) :
    after hostOps1 W (Proc.devRef .tc main_v10)
      = cmpi .sge (winners scatter_S33554432_S6553600x1_S6553600_n_0_0_1 bcast_S_S33554432 bcast_S6553600_S6553600x1_0
          (shapeCast S6553600 (W (Proc.devRef .tc main_v2_0)) shapeCasts_S32x204800_S6553600))
          (broadcastInDim S33554432 ![] bcast_S_S33554432 (constantI S_ 32 0#32)) := by
  unfold hostOps1; after_results; rfl

theorem s1_c2 (W : Valuation τ sig (Elt F)) :
    after hostOps1 W (Proc.devRef .tc main_c_2) = constantI S_ 32 0#32 := by
  unfold hostOps1; after_results

/-! ## Second stretch: the clip at zero -/

theorem s2_v11 (W : Valuation τ sig (Elt F)) :
    after hostOps1_1 W (Proc.devRef .tc main_v11)
      = maxsi (broadcastInDim S33554432 ![] bcast_S_S33554432 (id (W (Proc.devRef .tc main_c_2)))) (W (Proc.devRef .tc main_v8)) := by
  unfold hostOps1_1; after_results; rfl

theorem s2_v10 (W : Valuation τ sig (Elt F)) : after hostOps1_1 W (Proc.devRef .tc main_v10) = W (Proc.devRef .tc main_v10) := by
  unfold hostOps1_1; after_results

theorem s2_v4 (W : Valuation τ sig (Elt F)) : after hostOps1_1 W (Proc.devRef .tc main_v4) = W (Proc.devRef .tc main_v4) := by
  unfold hostOps1_1; after_results

/-! ## Third stretch: the index normalisation and the gather -/

theorem s3_v18 (W : Valuation τ sig (Elt F)) :
    after hostOps1_2 W (Proc.devRef .tc main_v18)
      = Host.gather gather_S6553600_S33554432x1_S33554432_n_0_n_n_0_1_1 (W (Proc.devRef .tc main_v4))
          (broadcastInDim S33554432x1 ![0] bcast_S33554432_S33554432x1_0
            (select (cmpi .slt (W (Proc.devRef .tc main_v11)) (broadcastInDim S33554432 ![] bcast_S_S33554432 (constantI S_ 32 0#32)))
              (addi (W (Proc.devRef .tc main_v11)) (broadcastInDim S33554432 ![] bcast_S_S33554432 (constantI S_ 32 6553600#32)))
              (W (Proc.devRef .tc main_v11)))) := by
  unfold hostOps1_2; after_results

theorem s3_cst (W : Valuation τ sig (Elt F)) :
    after hostOps1_2 W (Proc.devRef .tc main_cst) = constant (F := F) S_ .f32 0x00000000#32 := by
  unfold hostOps1_2; after_results

theorem s3_v10 (W : Valuation τ sig (Elt F)) : after hostOps1_2 W (Proc.devRef .tc main_v10) = W (Proc.devRef .tc main_v10) := by
  unfold hostOps1_2; after_results

/-! ## Fourth and fifth stretches: the default for untouched cells, the reshape -/

theorem s4_v19 (W : Valuation τ sig (Elt F)) :
    after hostOps1_3 W (Proc.devRef .tc main_v19)
      = select (W (Proc.devRef .tc main_v10)) (W (Proc.devRef .tc main_v18))
          (broadcastInDim S33554432 ![] bcast_S_S33554432 (id (W (Proc.devRef .tc main_cst)))) := by
  unfold hostOps1_3; after_results; rfl

theorem s5_v20 (W : Valuation τ sig (Elt F)) :
    after hostOps1_4 W (Proc.devRef .tc main_v20) = shapeCast S32x1024x1024 (W (Proc.devRef .tc main_v19)) shapeCasts_S33554432_S32x1024x1024 := by
  unfold hostOps1_4; after_results; rfl

/-! ## The tail as one function -/

/-- The result buffer after the five stretches: `pick` of the flattened pixel and depth arrays,
    reshaped to the depth map. -/
theorem tail_read (W : Valuation τ sig (Elt F)) :
    after (List.flatten [hostOps1, hostOps1_1, hostOps1_2, hostOps1_3, hostOps1_4]) W (Proc.devRef .tc main_v20)
      = shapeCast S32x1024x1024
          (pick scatter_S33554432_S6553600x1_S6553600_n_0_0_1 gather_S6553600_S33554432x1_S33554432_n_0_n_n_0_1_1
            bcast_S_S33554432 bcast_S6553600_S6553600x1_0 bcast_S33554432_S33554432x1_0 6553600#32
            (shapeCast S6553600 (W (Proc.devRef .tc main_v2_0)) shapeCasts_S32x204800_S6553600)
            (shapeCast S6553600 (W (Proc.devRef .tc main_v2_1)) shapeCasts_S32x204800_S6553600)
            (constant (F := F) S_ .f32 0x00000000#32))
          shapeCasts_S33554432_S32x1024x1024 := by
  rw [after_flatten5, s5_v20, s4_v19, s3_v10, s3_v18, s3_cst, s2_v10, s2_v4, s2_v11, s1_v10, s1_v4, s1_c2, s1_v8]
  rfl

end Cert.KernelIdeal.Tail

end
-- ==== Proof.Spec.lean ====
/-
  The per-point mathematics of the depth-map kernel, stated once over the extended reals.

  A point (x, y, z) of batch b is sent through the batch's 3 × 4 affine map: each projected
  coordinate is x·T₀ + y·T₁ + z·T₂ + T₃ for a row T of the matrix. The first two coordinates,
  halved, are moved to the raster [0, 1024): u ↦ clamp(u / 2 · 1024, 0, 1023), rounded down and
  read as a word; the pixel's flat word is row·1024 + column + b·1024². The third coordinate,
  halved, is the point's depth.
-/
import Idealize.ShloMosaic.PureOps.Ideal

noncomputable section

namespace Cert.Spec

open Idealize.ShloMosaic

/-- One projected coordinate: the affine form of the point in a row `T` of the batch's matrix,
    summed left to right. -/
def tcoord (x y z : EReal) (T : Fin 4 → EReal) : EReal := x * T 0 + y * T 1 + z * T 2 + T 3

/-- Half of a coordinate (the depth normalisation). -/
def half (t : EReal) : EReal := Ideal.div t (Ideal.ofBits .f32 0x40000000#32)

/-- The largest pixel coordinate, 1023, as the float literal. -/
def hi : EReal := Ideal.ofBits .f32 0x447FC000#32

/-- A pixel coordinate from a value `u` in [0, 2]: `u / 2 · 1024` clamped to [0, 1023], rounded
    down, as a 32-bit word. -/
def pixel (u : EReal) : BitVec 32 :=
  Ideal.fptosi 32 (Ideal.liftRound Int.floor
    (min hi (max (Ideal.ofBits .f32 0x00000000#32)
      (Ideal.div u (Ideal.ofBits .f32 0x40000000#32) * Ideal.ofBits .f32 0x44800000#32))))

/-- The column value of a point: its halved first coordinate moved from [-1, 1] to [0, 2]. -/
def ucol (tx : EReal) : EReal := half tx + Ideal.ofBits .f32 0x3F800000#32
/-- The row value of a point: its halved second coordinate, flipped, moved to [0, 2]. -/
def urow (ty : EReal) : EReal := Ideal.ofBits .f32 0x3F800000#32 - half ty

/-- The flat pixel word of a point of batch `b` with projected coordinates `tx`, `ty`:
    row · 1024 + column + b · 1024². -/
def segWord (tx ty : EReal) (b : Nat) : BitVec 32 :=
  (pixel (urow ty) * 1024#32 + pixel (ucol tx)) + BitVec.ofNat 32 b * 1048576#32

end Cert.Spec

end
-- ==== Proof.KernelPoint.lean ====
/-
  The kernel body's two stored values at one element of the output block.

  The body loads a block of points laid out coordinate-first ([3, 32, 8192]: coordinate, batch,
  position) and the [32, 3, 4] matrices. Element (b, q) of the depth block is half of the third
  projected coordinate of point q of batch b; element (b, q) of the pixel block is that point's flat
  pixel word, or the word -1 when the point's global position (block number · 8192 + q) is at or past
  200000, the number of real points in a batch.
-/
import proofs.«128998_j8263517077853_1_alg».proof.Proof.Gen.KernelIdeal.Skeleton
import proofs.«128998_j8263517077853_1_alg».proof.Proof.Spec
import Idealize.ShloMosaic.Lib.ValueIdx
import Idealize.ShloMosaic.Lib.Pipeline.Value
import Idealize.ShloMosaic.Lib.ValueLayout

noncomputable section

namespace Cert.KernelIdeal.Point

open Cert.KernelIdeal Cert.KernelIdeal.Gen Idealize.ShloMosaic Idealize.ShloMosaic.ValueIdx Cert.Spec

/-- Row `r` of batch `b`'s matrix: its four coefficients. -/
def trow (v2 : Vec Ideal S32x3x4 .f32) (b : Fin 32) (r : Fin 3) : Fin 4 → EReal := fun k => v2 (ix3 b r k)

/-- Coordinate `k` of point `q` of batch `b` in a coordinate-first block. -/
def pt (v0 : Vec Ideal S3x32x8192 .f32) (b : Fin 32) (q : Fin 8192) (k : Fin 3) : EReal := v0 (ix3 k b q)

/-- The `c`-th coordinate plane of a coordinate-first block: the [1, 32, 8192] slice at offset `c` on
    the first axis, with its unit axis dropped, reads at (b, q) the block at (c, b, q). -/
theorem plane_at (c : Nat) (v0 : Vec Ideal S3x32x8192 .f32)
    (h0 : S3x32x8192.ShapeCasts S3x32x8192) (h1 : S3x32x8192.Slices ![c, 0, 0] S1x32x8192)
    (h2 : S1x32x8192.ShapeCasts S32x8192) (b : Fin 32) (q : Fin 8192) :
    shapeCast S32x8192 (extractStridedSlice S1x32x8192 ![c, 0, 0] (shapeCast S3x32x8192 v0 h0) h1) h2 (ix2 b q)
      = v0 (ix3 ⟨c, h1.2 0⟩ b q) := by
  rw [shapeCast_self]
  refine (shapeCast_1ab_ab_apply _ h2 b q).trans ?_
  refine extractStridedSlice_apply _ _ h1 _ _ fun a => ?_
  match a with
  | ⟨0, _⟩ => exact (Nat.add_zero _).symm
  | ⟨1, _⟩ => exact (Nat.zero_add _).symm
  | ⟨2, _⟩ => exact (Nat.zero_add _).symm

/-- One matrix coefficient spread along the positions: the [32, 1, 1] slice of the matrices at offsets
    (0, r, k), flattened to [32], made a column [32, 1] and broadcast to [32, 8192], reads at (b, q)
    the coefficient (r, k) of batch b's matrix. -/
theorem coef_at (r k : Nat) (v2 : Vec Ideal S32x3x4 .f32)
    (h₁ : S32x3x4.Slices ![0, r, k] S32x1x1) (h₂ : S32x1x1.ShapeCasts S32) (h₃ : S32.ShapeCasts S32x1)
    (h₄ : S32x1.Broadcasts S32x8192) (b : Fin 32) (q : Fin 8192) :
    broadcastTo S32x8192 (shapeCast S32x1 (shapeCast S32 (extractStridedSlice S32x1x1 ![0, r, k] v2 h₁) h₂) h₃) h₄ (ix2 b q)
      = v2 (ix3 b ⟨r, h₁.2 1⟩ ⟨k, h₁.2 2⟩) := by
  refine (broadcastTo_apply _ h₄ (ix2 b q) (ix2 b (0 : Fin 1)) fun a => ?_).trans ?_
  · match a with
    | ⟨0, _⟩ => rfl
    | ⟨1, _⟩ => rfl
  refine (shapeCast_apply _ h₃ (ix2 b (0 : Fin 1)) (ix1 b) ?_).trans ?_
  · rw [Shape.rowMajor_val_two, Shape.rowMajor_val_one]
    show b.val = b.val * 1 + 0
    omega
  refine (shapeCast_apply _ h₂ (ix1 b) (ix3 b (0 : Fin 1) (0 : Fin 1)) ?_).trans ?_
  · rw [Shape.rowMajor_val_three, Shape.rowMajor_val_one]
    show (b.val * 1 + 0) * 1 + 0 = b.val
    omega
  refine extractStridedSlice_apply _ _ h₁ _ _ fun a => ?_
  match a with
  | ⟨0, _⟩ => exact (Nat.zero_add _).symm
  | ⟨1, _⟩ => exact (Nat.add_zero _).symm
  | ⟨2, _⟩ => exact (Nat.add_zero _).symm

/-! The integer and rounding operations read at an index: each is the scalar operation on the elements. -/
section WordsAtIndex
variable {s : Shape} {w : Nat} {φ : FTy}
/-- A sum of words at an index is the sum of the elements. -/
theorem addi_at (x y : IVec s w) (i : s.Idx) : addi x y i = IntOp.addi (x i) (y i) := rfl
/-- A product of words at an index is the product of the elements. -/
theorem muli_at (x y : IVec s w) (i : s.Idx) : muli x y i = IntOp.muli (x i) (y i) := rfl
/-- A comparison of words at an index compares the elements. -/
theorem cmpi_at (p : CmpIPredicate) (x y : IVec s w) (i : s.Idx) : cmpi p x y i = IntOp.cmpi p (x i) (y i) := rfl
/-- A conversion to signed words at an index converts the element. -/
theorem fptosi_at (x : FVec Ideal s φ) (i : s.Idx) : fptosi w x i = Ideal.fptosi w (x i) := rfl
/-- A floor at an index is the element rounded down to an integer. -/
theorem floor_at (x : FVec Ideal s φ) (i : s.Idx) : floor x i = Ideal.liftRound Int.floor (x i) := rfl
end WordsAtIndex

/-- The position counter: the iota along the positions reads, at (b, q), the word of q. -/
theorem pos_word_at (h : S32x8192.Iotas .tc 32 [1]) (b : Fin 32) (q : Fin 8192) :
    iota .tc S32x8192 32 [1] h (ix2 b q) = BitVec.ofNat 32 q.val :=
  iota_single_apply _ _ _ _ h _

/-- The batch offset: the iota along the batches ([32, 1]) times 1024², broadcast along the positions,
    reads at (b, q) the word of b times 1024². -/
theorem batch_word_at (h : S32x1.Iotas .tc 32 [0]) (h' : S32x1.Broadcasts S32x8192) (b : Fin 32) (q : Fin 8192) :
    broadcastTo S32x8192 (muli (iota .tc S32x1 32 [0] h) (broadcast S32x1 1048576#32)) h' (ix2 b q)
      = BitVec.ofNat 32 b.val * 1048576#32 := by
  refine (broadcastTo_apply _ h' (ix2 b q) (ix2 b (0 : Fin 1)) fun a => ?_).trans ?_
  · match a with
    | ⟨0, _⟩ => rfl
    | ⟨1, _⟩ => rfl
  show IntOp.muli (iota .tc S32x1 32 [0] h (ix2 b (0 : Fin 1))) 1048576#32 = _
  rw [iota_single_apply]
  rfl

/-- The mask. For a block number t < 25 and a position q < 8192 the word q + t · 8192 does not wrap and
    is non-negative read signed (it is below 2³¹), so its signed comparison with 200000 is the
    comparison of the natural number t · 8192 + q with 200000. -/
theorem mask_at (t q : Nat) (ht : t < 25) (hq : q < 8192) :
    IntOp.cmpi .slt (IntOp.addi (BitVec.ofNat 32 q) (Scalar.muli (BitVec.ofNat 32 t) 8192#32)) 200000#32
      = if t * 8192 + q < 200000 then 1#1 else 0#1 := by
  have e : (BitVec.ofNat 32 q + BitVec.ofNat 32 t * 8192#32).toNat = t * 8192 + q := by
    simp only [BitVec.toNat_add, BitVec.toNat_mul, BitVec.toNat_ofNat]
    omega
  have ei : (BitVec.ofNat 32 q + BitVec.ofNat 32 t * 8192#32).toInt = ((t * 8192 + q : Nat) : Int) := by
    rw [BitVec.toInt_eq_toNat_of_lt (by rw [e]; omega), e]
  have e2 : (200000#32 : BitVec 32).toInt = 200000 := by decide
  show BitVec.ofBool (BitVec.slt (BitVec.ofNat 32 q + BitVec.ofNat 32 t * 8192#32) 200000#32) = _
  rw [BitVec.slt_eq_decide, ei, e2]
  by_cases h : t * 8192 + q < 200000
  · rw [if_pos h, decide_eq_true (by omega)]; rfl
  · rw [if_neg h, decide_eq_false (by omega)]; rfl

/-- The depth block at (b, q): half of the point's third projected coordinate. -/
theorem depth_at (v0 : Vec Ideal S3x32x8192 .f32) (v2 : Vec Ideal S32x3x4 .f32) (b : Fin 32) (q : Fin 8192) :
    k0_pay8 (F := Ideal) v2 (k0_pay3 v0) (k0_pay4 v0) (k0_pay5 v0) (ix2 b q)
      = half (tcoord (pt v0 b q 0) (pt v0 b q 1) (pt v0 b q 2) (trow v2 b 2)) := by
  unfold k0_pay8 k0_pay3 k0_pay4 k0_pay5 k0_pay2
  simp only [divf_apply, addf_apply, mulf_apply, broadcast_apply]
  rw [coef_at, coef_at, coef_at, coef_at, plane_at, plane_at, plane_at]
  rfl

/-- The pixel block at (b, q) in block number `t`: the point's flat pixel word when its global position
    `t · 8192 + q` is a real point's, the word -1 otherwise. -/
theorem seg_at (t : Nat) (ht : t < 25) (v0 : Vec Ideal S3x32x8192 .f32) (v2 : Vec Ideal S32x3x4 .f32)
    (b : Fin 32) (q : Fin 8192) :
    k0_pay1 (F := Ideal) (BitVec.ofNat 32 t) (k0_pay9 (k0_pay6 v0 v2)) (k0_pay10 (k0_pay7 v0 v2)) (k0_pay11 (F := Ideal)) (ix2 b q)
      = if t * 8192 + q.val < 200000 then
          segWord (tcoord (pt v0 b q 0) (pt v0 b q 1) (pt v0 b q 2) (trow v2 b 0))
            (tcoord (pt v0 b q 0) (pt v0 b q 1) (pt v0 b q 2) (trow v2 b 1)) b.val
        else 4294967295#32 := by
  unfold k0_pay1 k0_pay9 k0_pay10 k0_pay11 k0_pay6 k0_pay7 k0_pay3 k0_pay4 k0_pay5 k0_pay2
  simp only [select_apply, addi_at, muli_at, cmpi_at, fptosi_at, floor_at, minimumf_apply, maximumf_apply,
    divf_apply, addf_apply, subf_apply, mulf_apply, broadcast_apply]
  rw [coef_at, coef_at, coef_at, coef_at, coef_at, coef_at, coef_at, coef_at, plane_at, plane_at, plane_at,
    pos_word_at, batch_word_at, mask_at t q.val ht q.isLt]
  by_cases h : t * 8192 + q.val < 200000
  · rw [if_pos h, if_pos h, select_one]
    rfl
  · rw [if_neg h, if_neg h, select_zero]

end Cert.KernelIdeal.Point

end
-- ==== Proof.KernelArrays.lean ====
/-
  From blocks to arrays: what the two output arrays of the projection kernel hold after the run.

  The kernel walks 25 blocks of 8192 positions over arrays of 204800 = 25 · 8192 positions per batch
  (200000 real points, then 4800 positions of padding). Block `t` of each output is the body's value
  on block `t` of the coordinate-first point array and on the whole matrix array; the blocks tile the
  outputs, so each output array is ONE function of the arrays the region finds: the pixel array holds
  a point's flat pixel word at a real position and the word -1 at a padding position, the depth array
  half of the point's third projected coordinate. The point array the region finds is the argument
  transposed to coordinate-first and padded with zeros: at a real position it is the argument's entry.
-/
import proofs.«128998_j8263517077853_1_alg».proof.Proof.FrameKernelIdeal
import proofs.«128998_j8263517077853_1_alg».proof.Proof.KernelPoint
import proofs.«128998_j8263517077853_1_alg».proof.Proof.Spec
import Idealize.ShloMosaic.Lib.Pipeline.Value
import Idealize.ShloMosaic.Lib.ValueIdx
import Idealize.ShloMosaic.Lib.KernelVsHost

noncomputable section

namespace Cert.KernelIdeal.Arrays

open Cert.KernelIdeal Cert.KernelIdeal.Gen Cert.KernelIdeal.GenP Idealize.ShloMosaic Idealize.ShloMosaic.TcCoe
  Idealize.ShloMosaic.ValueIdx Idealize.SL.Sem Cert.Spec

variable (m : (ℓ : Loc nD τ sig) → Buf (Elt Ideal) ℓ)

/-- Coordinate `k` of the point at position `col` of batch `b`, in the padded coordinate-first array the
    region finds. -/
def ptk (c : Dev nD) (b : Fin 32) (col : Fin 204800) (k : Fin 3) : EReal := V m c main_v1 (ix3 k b col)

/-- Row `r` of batch `b`'s matrix, from the argument array. -/
def mrow (c : Dev nD) (b : Fin 32) (r : Fin 3) : Fin 4 → EReal :=
  fun k => m ((c.tc : Thread nD τ).loc main_arg1) (ix3 b r k)

/-- The pixel array after the run. -/
def segArr (c : Dev nD) : S32x204800.Idx → BitVec 32 := fun i =>
  if (i 1).val < 200000 then
    segWord (tcoord (ptk m c (i 0) (i 1) 0) (ptk m c (i 0) (i 1) 1) (ptk m c (i 0) (i 1) 2) (mrow m c (i 0) 0))
      (tcoord (ptk m c (i 0) (i 1) 0) (ptk m c (i 0) (i 1) 1) (ptk m c (i 0) (i 1) 2) (mrow m c (i 0) 1)) (i 0).val
  else 4294967295#32

/-- The depth array after the run. -/
def depthArr (c : Dev nD) : S32x204800.Idx → EReal := fun i =>
  half (tcoord (ptk m c (i 0) (i 1) 0) (ptk m c (i 0) (i 1) 1) (ptk m c (i 0) (i 1) 2) (mrow m c (i 0) 2))

/-! ## Reading the blocks of the arrays the region finds -/

/-- Zero offsets on every axis, however written, are the zero function (rank 2, rank 3). -/
theorem zero_off2 : (![0, 0] : Fin 2 → Nat) = fun _ => 0 := funext fun a => by fin_cases a <;> rfl
theorem zero_off3 : (![0, 0, 0] : Fin 3 → Nat) = fun _ => 0 := funext fun a => by fin_cases a <;> rfl

/-- The index maps over the 25 points: the point array's block moves along the position axis with the point, the
    matrix array's one block is the whole array, each output's block moves along the position axis with the point;
    and the one grid coordinate of point `t` is `t`. -/
theorem block_index : ∀ t : Fin cfg0.N,
    win0_0.index t (0 : Fin 3) = 0 ∧ win0_0.index t (1 : Fin 3) = 0 ∧ win0_0.index t (2 : Fin 3) = t.val
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = t.val
    ∧ win0_3.index t (0 : Fin 2) = 0 ∧ win0_3.index t (1 : Fin 2) = t.val
    ∧ ((grid0.coords t) 0).val = t.val :=
  (by decide +kernel : ∀ t : Fin grid0.N, _)

/-- Point `q` of batch `b` in block `t` of the point array is the point at position `t · 8192 + q` of the batch:
    a block's coordinate is the block index times the block's extent plus the coordinate inside the block. -/
theorem pt_iblk (c : Dev nD) (t : Fin cfg0.N) (b : Fin 32) (q : Fin 8192) (k : Fin 3) (h : t.val * 8192 + q.val < 204800) :
    Point.pt (iblk m c 0 t) b q k = ptk m c b ⟨t.val * 8192 + q.val, h⟩ k := by
  obtain ⟨e0, e1, e2, -⟩ := block_index t
  unfold Point.pt ptk iblk
  rw [View.read_apply]
  show V m c main_v1 _ = V m c main_v1 _
  congr 1
  funext a; apply Fin.ext
  match a with
  | ⟨0, _⟩ => show win0_0.index t (0 : Fin 3) * 3 + 1 * k.val = k.val; omega
  | ⟨1, _⟩ => show win0_0.index t (1 : Fin 3) * 32 + 1 * b.val = b.val; omega
  | ⟨2, _⟩ => show win0_0.index t (2 : Fin 3) * 8192 + 1 * q.val = t.val * 8192 + q.val; omega

/-- The matrix block at every point is the whole matrix array, which no operation before the region writes: row `r`
    of batch `b` in it is the argument's. -/
theorem trow_iblk (c : Dev nD) (t : Fin cfg0.N) (b : Fin 32) (r : Fin 3) :
    Point.trow (iblk m c 1 t) b r = mrow m c b r := by
  obtain ⟨-, -, -, e0, e1, e2, -⟩ := block_index t
  funext k
  unfold Point.trow mrow iblk
  rw [View.read_apply]
  show V m c main_arg1 _ = m ((c.tc : Thread nD τ).loc main_arg1) _
  rw [V_main_arg1]
  congr 1
  funext a; apply Fin.ext
  match a with
  | ⟨0, _⟩ => show win0_1.index t (0 : Fin 3) * 32 + 1 * b.val = b.val; omega
  | ⟨1, _⟩ => show win0_1.index t (1 : Fin 3) * 3 + 1 * r.val = r.val; omega
  | ⟨2, _⟩ => show win0_1.index t (2 : Fin 3) * 4 + 1 * k.val = k.val; omega

/-! ## The depth array -/

/-- The depth block over any block of points and any matrices, at an index read by its coordinates. -/
theorem depth_block_at (v0 : Vec Ideal S3x32x8192 .f32) (v2 : Vec Ideal S32x3x4 .f32) (y : S32x8192.Idx) :
    k0_pay8 (F := Ideal) v2 (k0_pay3 v0) (k0_pay4 v0) (k0_pay5 v0) y
      = half (tcoord (Point.pt v0 (y 0) (y 1) 0) (Point.pt v0 (y 0) (y 1) 1) (Point.pt v0 (y 0) (y 1) 2) (Point.trow v2 (y 0) 2)) :=
  (congrArg _ (eq_ix2 y)).trans (Point.depth_at v0 v2 (y 0) (y 1))

/-- The depth of point `q` of batch `b` in block `t` is the depth array's entry at batch `b`, position `t · 8192 + q`. -/
theorem depthArr_at (c : Dev nD) (t : Fin cfg0.N) (b : Fin 32) (q : Fin 8192) (i : S32x204800.Idx)
    (hi0 : (i 0).val = b.val) (hi1 : (i 1).val = t.val * 8192 + q.val) :
    half (tcoord (Point.pt (iblk m c 0 t) b q 0) (Point.pt (iblk m c 0 t) b q 1) (Point.pt (iblk m c 0 t) b q 2)
      (Point.trow (iblk m c 1 t) b 2)) = depthArr m c i := by
  have hlt : t.val * 8192 + q.val < 204800 := by rw [← hi1]; exact idx2_lt1 i
  have e0 : (i 0 : Fin 32) = b := Fin.ext hi0
  have e1 : (i 1 : Fin 204800) = ⟨t.val * 8192 + q.val, hlt⟩ := Fin.ext hi1
  unfold depthArr
  rw [e0, e1, pt_iblk m c t b q 0 hlt, pt_iblk m c t b q 1 hlt, pt_iblk m c t b q 2 hlt, trow_iblk m c t b 2]
  rfl

/-- What point `t` writes back to the depth array is block `t` of `depthArr`. -/
theorem depth_written (c : Dev nD) (t : Fin cfg0.N) :
    (dats m 0 c).flushed 3 t = ((cfg0.win 3).blk t).view.read (Elt Ideal) (depthArr m c) := by
  show (cfg0.win 3).cut (grid0.coords t) ((dats m 0 c).after 3 t) = _
  rw [after0_3]
  unfold out0_3
  rw [View.canon_unit_zero zero_off2]
  simp only [View.ld_unit_zero (S := S3x32x8192) zero_off3, View.ld_unit_zero (S := S32x3x4) zero_off3]
  obtain ⟨-, -, -, -, -, -, -, -, e0, e1, -⟩ := block_index t
  funext y
  refine (depth_block_at (iblk m c 0 t) (iblk m c 1 t) y).trans ?_
  rw [View.read_apply]
  refine depthArr_at m c t (y 0) (y 1) _ ?_ ?_
  · show win0_3.index t (0 : Fin 2) * 32 + 1 * (y 0).val = (y 0).val; omega
  · show win0_3.index t (1 : Fin 2) * 8192 + 1 * (y 1).val = t.val * 8192 + (y 1).val; omega

/-- An index of the depth array is in point `t`'s block iff each coordinate is in the block's range on its axis. -/
theorem mem_depth_block (t : Fin cfg0.N) (i : S32x204800.Idx) :
    i ∈ ((cfg0.win 3).blk t).view.set ↔ ∀ a : Fin 2, win0_3.index t a * S32x8192.size a ≤ (i a).val ∧ (i a).val < win0_3.index t a * S32x8192.size a + S32x8192.size a := by
  show i ∈ ((View.whole main_v2_1).slice (win0_3.rect t)).set ↔ _
  rw [View.set_slice_whole, Rect.mem_set_unit]
  exact Iff.rfl

/-- The 25 blocks tile the depth array: position `col` lies in the block of point `col / 8192`. -/
theorem depth_blocks_cover (i : S32x204800.Idx) : ∃ t : Fin cfg0.N, (cfg0.win 3).flush t = true ∧ i ∈ ((cfg0.win 3).blk t).view.set := by
  have h0 : (i 0).val < 32 := idx2_lt0 i
  have h1 : (i 1).val < 204800 := idx2_lt1 i
  have hN : cfg0.N = 25 := N_0
  let t : Fin cfg0.N := ⟨(i 1).val / 8192, by rw [hN]; omega⟩
  obtain ⟨-, -, -, -, -, -, -, -, e0, e1, -⟩ := block_index t
  have ht : t.val = (i 1).val / 8192 := rfl
  refine ⟨t, flush0_3 t, ?_⟩
  rw [mem_depth_block]
  intro a
  match a with
  | ⟨0, _⟩ => show win0_3.index t (0 : Fin 2) * 32 ≤ (i 0).val ∧ (i 0).val < win0_3.index t (0 : Fin 2) * 32 + 32; omega
  | ⟨1, _⟩ => show win0_3.index t (1 : Fin 2) * 8192 ≤ (i 1).val ∧ (i 1).val < win0_3.index t (1 : Fin 2) * 8192 + 8192; omega

/-! ## The pixel array -/

/-- The pixel block of block number `t` over any block of points and any matrices, at an index read by its coordinates. -/
theorem seg_block_at (t : Nat) (ht : t < 25) (v0 : Vec Ideal S3x32x8192 .f32) (v2 : Vec Ideal S32x3x4 .f32) (y : S32x8192.Idx) :
    k0_pay1 (F := Ideal) (BitVec.ofNat 32 t) (k0_pay9 (k0_pay6 v0 v2)) (k0_pay10 (k0_pay7 v0 v2)) (k0_pay11 (F := Ideal)) y
      = if t * 8192 + (y 1).val < 200000 then
          segWord (tcoord (Point.pt v0 (y 0) (y 1) 0) (Point.pt v0 (y 0) (y 1) 1) (Point.pt v0 (y 0) (y 1) 2) (Point.trow v2 (y 0) 0))
            (tcoord (Point.pt v0 (y 0) (y 1) 0) (Point.pt v0 (y 0) (y 1) 1) (Point.pt v0 (y 0) (y 1) 2) (Point.trow v2 (y 0) 1)) (y 0).val
        else 4294967295#32 :=
  (congrArg _ (eq_ix2 y)).trans (Point.seg_at t ht v0 v2 (y 0) (y 1))

/-- The pixel word of point `q` of batch `b` in block `t` is the pixel array's entry at batch `b`, position
    `t · 8192 + q`: the same test of the position against 200000, the same point, the same two matrix rows. -/
theorem segArr_at (c : Dev nD) (t : Fin cfg0.N) (b : Fin 32) (q : Fin 8192) (i : S32x204800.Idx)
    (hi0 : (i 0).val = b.val) (hi1 : (i 1).val = t.val * 8192 + q.val) :
    (if t.val * 8192 + q.val < 200000 then
        segWord (tcoord (Point.pt (iblk m c 0 t) b q 0) (Point.pt (iblk m c 0 t) b q 1) (Point.pt (iblk m c 0 t) b q 2) (Point.trow (iblk m c 1 t) b 0))
          (tcoord (Point.pt (iblk m c 0 t) b q 0) (Point.pt (iblk m c 0 t) b q 1) (Point.pt (iblk m c 0 t) b q 2) (Point.trow (iblk m c 1 t) b 1)) b.val
      else 4294967295#32) = segArr m c i := by
  have hlt : t.val * 8192 + q.val < 204800 := by rw [← hi1]; exact idx2_lt1 i
  have e0 : (i 0 : Fin 32) = b := Fin.ext hi0
  have e1 : (i 1 : Fin 204800) = ⟨t.val * 8192 + q.val, hlt⟩ := Fin.ext hi1
  unfold segArr
  rw [e0, e1, pt_iblk m c t b q 0 hlt, pt_iblk m c t b q 1 hlt, pt_iblk m c t b q 2 hlt, trow_iblk m c t b 0, trow_iblk m c t b 1]
  rfl

/-- What point `t` writes back to the pixel array is block `t` of `segArr`. -/
theorem seg_written (c : Dev nD) (t : Fin cfg0.N) :
    (dats m 0 c).flushed 2 t = ((cfg0.win 2).blk t).view.read (Elt Ideal) (segArr m c) := by
  show (cfg0.win 2).cut (grid0.coords t) ((dats m 0 c).after 2 t) = _
  rw [after0_2]
  unfold out0_2
  rw [View.canon_unit_zero zero_off2]
  simp only [View.ld_unit_zero (S := S3x32x8192) zero_off3, View.ld_unit_zero (S := S32x3x4) zero_off3]
  obtain ⟨-, -, -, -, -, -, e0, e1, -, -, eg⟩ := block_index t
  have hN : cfg0.N = 25 := N_0
  rw [eg]
  funext y
  refine (seg_block_at t.val (by rw [← hN]; exact t.isLt) (iblk m c 0 t) (iblk m c 1 t) y).trans ?_
  rw [View.read_apply]
  refine segArr_at m c t (y 0) (y 1) _ ?_ ?_
  · show win0_2.index t (0 : Fin 2) * 32 + 1 * (y 0).val = (y 0).val; omega
  · show win0_2.index t (1 : Fin 2) * 8192 + 1 * (y 1).val = t.val * 8192 + (y 1).val; omega

/-- An index of the pixel array is in point `t`'s block iff each coordinate is in the block's range on its axis. -/
theorem mem_seg_block (t : Fin cfg0.N) (i : S32x204800.Idx) :
    i ∈ ((cfg0.win 2).blk t).view.set ↔ ∀ a : Fin 2, win0_2.index t a * S32x8192.size a ≤ (i a).val ∧ (i a).val < win0_2.index t a * S32x8192.size a + S32x8192.size a := by
  show i ∈ ((View.whole main_v2_0).slice (win0_2.rect t)).set ↔ _
  rw [View.set_slice_whole, Rect.mem_set_unit]
  exact Iff.rfl

/-- The 25 blocks tile the pixel array: position `col` lies in the block of point `col / 8192`. -/
theorem seg_blocks_cover (i : S32x204800.Idx) : ∃ t : Fin cfg0.N, (cfg0.win 2).flush t = true ∧ i ∈ ((cfg0.win 2).blk t).view.set := by
  have h0 : (i 0).val < 32 := idx2_lt0 i
  have h1 : (i 1).val < 204800 := idx2_lt1 i
  have hN : cfg0.N = 25 := N_0
  let t : Fin cfg0.N := ⟨(i 1).val / 8192, by rw [hN]; omega⟩
  obtain ⟨-, -, -, -, -, -, e0, e1, -⟩ := block_index t
  have ht : t.val = (i 1).val / 8192 := rfl
  refine ⟨t, flush0_2 t, ?_⟩
  rw [mem_seg_block]
  intro a
  match a with
  | ⟨0, _⟩ => show win0_2.index t (0 : Fin 2) * 32 ≤ (i 0).val ∧ (i 0).val < win0_2.index t (0 : Fin 2) * 32 + 32; omega
  | ⟨1, _⟩ => show win0_2.index t (1 : Fin 2) * 8192 ≤ (i 1).val ∧ (i 1).val < win0_2.index t (1 : Fin 2) * 8192 + 8192; omega

/-- At a real position the padded coordinate-first array holds the argument's entry. -/
theorem ptk_real (c : Dev nD) (b : Fin 32) (col : Fin 204800) (k : Fin 3) (h : col.val < 200000) :
    ptk m c b col k = m ((c.tc : Thread nD τ).loc main_arg0) (ix3 b ⟨col.val, h⟩ k) := by
  -- the array the region finds: the argument transposed to coordinate-first, then padded on the position axis
  unfold ptk
  dsimp only [V, V0]
  simp only [hostOps0, hostOps0_1, List.flatten_cons, List.flatten_nil, List.append_nil, List.cons_append, List.nil_append]
  after_results
  show pad S3x32x204800 ![0, 0, 0] ![0, 0, 4800] ![0, 0, 0]
      (transpose S3x32x200000 [2, 0, 1] (m ((c.tc : Thread nD τ).loc main_arg0)) transposes_S32x200000x3_S3x32x200000_2_0_1)
      (sitofp (F := Ideal) FTy.f32 (constantI S_ 32 0#32)) pads_S3x32x200000_S3x32x204800_000_000_048000 h_S_ (ix3 k b col) = _
  -- a position below 200000 is inside the unpadded box: the padded array reads the transposed one there,
  refine (pad_apply_of_inside _ _ _ _ _ _ _ (ix3 k b col) (ix3 k b (⟨col.val, h⟩ : Fin 200000)) ?_).trans ?_
  · intro a
    match a with
    | ⟨0, _⟩ => show k.val = 0 + k.val * (0 + 1); omega
    | ⟨1, _⟩ => show b.val = 0 + b.val * (0 + 1); omega
    | ⟨2, _⟩ => show col.val = 0 + col.val * (0 + 1); omega
  -- and the transposed array at (coordinate, batch, position) reads the argument at (batch, position, coordinate)
  · refine transpose_apply _ _ _ (ix3 k b (⟨col.val, h⟩ : Fin 200000)) (ix3 b (⟨col.val, h⟩ : Fin 200000) k) ?_
    intro a
    match a with
    | ⟨0, _⟩ => rfl
    | ⟨1, _⟩ => rfl
    | ⟨2, _⟩ => rfl

/-- The pixel array after the run is `segArr`. -/
theorem final2 (c : Dev nD) : (dats m 0 c).arrAt 2 cfg0.N = segArr m c :=
  (dats m 0 c).arrAt_eq_of_cover 2 (segArr m c) (fun t _ => seg_written m c t) seg_blocks_cover

/-- The depth array after the run is `depthArr`. -/
theorem final3 (c : Dev nD) : (dats m 0 c).arrAt 3 cfg0.N = depthArr m c :=
  (dats m 0 c).arrAt_eq_of_cover 3 (depthArr m c) (fun t _ => depth_written m c t) depth_blocks_cover

end Cert.KernelIdeal.Arrays

end
-- ==== Proof.KernelRun.lean ====
/-
  The idealized kernel's run, with its result named.

  The frame run leaves each pipeline array at what the blocks wrote and every other buffer at what
  the host operations after the region make of those arrays. The two output arrays are the pixel
  array and the depth array of the per-point specification; the host tail turns them into the
  last-write-wins composite of their flattenings, reshaped: that is the depth map the program
  returns, as one function of the two argument arrays.
-/
import proofs.«128998_j8263517077853_1_alg».proof.Proof.KernelTail
import proofs.«128998_j8263517077853_1_alg».proof.Proof.KernelArrays
import Idealize.ShloMosaic.Lib.Pipeline.FrameSuffix

noncomputable section

namespace Cert.KernelIdeal.Run

open Cert.KernelIdeal Cert.KernelIdeal.Gen Cert.KernelIdeal.GenP Cert.KernelIdeal.Arrays Idealize.ShloMosaic Idealize.ShloMosaic.TcCoe
  Idealize.SL.Sem Idealize.ShloMosaic.StableHlo Cert.LastWriteWins

variable (m : (ℓ : Loc nD τ sig) → Buf (Elt Ideal) ℓ) (ρ : Dev nD → PrngReg)

/-- The depth map the idealized kernel returns on device `c`. -/
def result (c : Dev nD) : S32x1024x1024.Idx → EReal :=
  shapeCast S32x1024x1024
    (pick scatter_S33554432_S6553600x1_S6553600_n_0_0_1 gather_S6553600_S33554432x1_S33554432_n_0_n_n_0_1_1
      bcast_S_S33554432 bcast_S6553600_S6553600x1_0 bcast_S33554432_S33554432x1_0 6553600#32
      (shapeCast S6553600 (segArr m c) shapeCasts_S32x204800_S6553600)
      (shapeCast S6553600 (depthArr m c) shapeCasts_S32x204800_S6553600)
      (constant (F := Ideal) S_ .f32 0x00000000#32))
    shapeCasts_S33554432_S32x1024x1024

/-- What the host tail makes of the arrays the region leaves is `result`. -/
theorem tail_value (c : Dev nD) :
    Pipeline.afterTail₀ cfgs (dats m) 0 (V0 m) [hostOps1, hostOps1_1, hostOps1_2, hostOps1_3, hostOps1_4] c main_v20 = result m c := by
  unfold Pipeline.afterTail₀
  rw [Tail.tail_read]
  have e2 : Pipeline.withArrays (cfgs 0).spec c (V0 m c) (fun w => (dats m 0 c).arrAt w (cfgs 0).N) (Proc.devRef .tc main_v2_0)
      = (dats m 0 c).arrAt 2 cfg0.N := Pipeline.withArrays_arr spec0 launch0.win.arr_inj c _ _ 2
  have e3 : Pipeline.withArrays (cfgs 0).spec c (V0 m c) (fun w => (dats m 0 c).arrAt w (cfgs 0).N) (Proc.devRef .tc main_v2_1)
      = (dats m 0 c).arrAt 3 cfg0.N := Pipeline.withArrays_arr spec0 launch0.win.arr_inj c _ _ 3
  rw [e2, e3, final2, final3]
  rfl

/-- Every weakly fair execution of the idealized kernel terminates with the depth map at `result`
    and the arguments unchanged. -/
theorem run_value : θ_run defs (onTc (τ := τ) (main (F := Ideal))) ⟨m, fun _ => 0, ρ⟩ fun r => ∀ c : Dev nD,
      r.2.mem ((c.tc : Thread nD τ).loc main_v20) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v20 (Pipeline.mem_restRefs_of main_v20 (by decide) (by decide))).trans (tail_value m c),
     ((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c)))⟩)
    (run_main m ρ)

end Cert.KernelIdeal.Run

end
-- ==== Proof.RefRun.lean ====
/-
  The reference program's run, read back stage by stage.

  The reference is a straight line of ninety host operations. Every weakly fair execution of it
  terminates with each buffer at the value of the operation that wrote it, applied to the values of
  its operands; read along the program, the result buffer ends at the last stage's value as a
  function of the two argument arrays, and the arguments are untouched. The stages are the
  definitions `val_<buffer>` that name each operation's value over its operands' stages, so that a
  value used several times is named once.

  The line is cut into eleven consecutive stretches. Each buffer is written once, so after a
  stretch a buffer written earlier still holds its stage's value, and a buffer the stretch writes
  holds its operation's function of its operands' contents, which are stages' values already: for
  every stretch one lemma carries the equations `contents = stage's value`, for the few buffers a
  later operation still reads, from the stretch's start to its end.
-/
import proofs.«128998_j8263517077853_1_alg».proof.Proof.ReadReference
import Idealize.ShloMosaic.Lib.StableHlo.Run

noncomputable section

namespace Cert.ReferenceIdeal.RefRun

open Cert.ReferenceIdeal Cert.ReferenceIdeal.Gen Cert.ReferenceIdeal.ValueP Cert.ReferenceIdeal.ReadP
  Idealize.ShloMosaic Idealize.ShloMosaic.TcCoe Idealize.SL.Sem Idealize.ShloMosaic.StableHlo

variable {F : FTy → Type} [FloatOps F]

/-- Operations 1 to 9 (the homogeneous coordinate, the contraction with the matrices, the halving, the first coordinate's column): from the arguments. -/
theorem chunk1 (W : Valuation τ sig (Elt F)) (x0 : (⟨S32x200000x3, .f32⟩ : BufTy).Contents (Elt F)) (x1 : (⟨S32x3x4, .f32⟩ : BufTy).Contents (Elt F))
    (h0 : W (Proc.devRef .tc main_arg0) = x0) (h1 : W (Proc.devRef .tc main_arg1) = x1) :
    after ((ops (F := F)).take 9) W (Proc.devRef .tc main_v4) = val_main_v4 (F := F) x0 x1
    ∧ after ((ops (F := F)).take 9) W (Proc.devRef .tc main_v6) = val_main_v6 (F := F) x0 x1 := by
  simp only [ops, List.take_succ_cons, List.take_zero]
  refine ⟨?_, ?_⟩
  · after_results
    rw [h0, h1]; rfl
  · after_results
    rw [h0, h1]; rfl

/-- Operations 10 to 18: the first coordinate moved to pixel units, (a + 1) / 2 * 1024. -/
theorem chunk2 (W : Valuation τ sig (Elt F)) (x0 : (⟨S32x200000x3, .f32⟩ : BufTy).Contents (Elt F)) (x1 : (⟨S32x3x4, .f32⟩ : BufTy).Contents (Elt F))
    (h4 : W (Proc.devRef .tc main_v4) = val_main_v4 (F := F) x0 x1) (h6 : W (Proc.devRef .tc main_v6) = val_main_v6 (F := F) x0 x1) :
    after (((ops (F := F)).drop 9).take 9) W (Proc.devRef .tc main_v4) = val_main_v4 (F := F) x0 x1
    ∧ after (((ops (F := F)).drop 9).take 9) W (Proc.devRef .tc main_v12) = val_main_v12 (F := F) x0 x1 := by
  simp only [ops, List.drop_succ_cons, List.drop_zero, List.take_succ_cons, List.take_zero]
  refine ⟨?_, ?_⟩
  · after_results
    exact h4
  · after_results
    rw [h6]; rfl

/-- Operations 19 to 26: the first coordinate clipped to [0, 1023]. -/
theorem chunk3 (W : Valuation τ sig (Elt F)) (x0 : (⟨S32x200000x3, .f32⟩ : BufTy).Contents (Elt F)) (x1 : (⟨S32x3x4, .f32⟩ : BufTy).Contents (Elt F))
    (h4 : W (Proc.devRef .tc main_v4) = val_main_v4 (F := F) x0 x1) (h12 : W (Proc.devRef .tc main_v12) = val_main_v12 (F := F) x0 x1) :
    after (((ops (F := F)).drop 18).take 8) W (Proc.devRef .tc main_v4) = val_main_v4 (F := F) x0 x1
    ∧ after (((ops (F := F)).drop 18).take 8) W (Proc.devRef .tc main_v13) = val_main_v13 (F := F) x0 x1 := by
  simp only [ops, List.drop_succ_cons, List.drop_zero, List.take_succ_cons, List.take_zero]
  refine ⟨?_, ?_⟩
  · after_results
    exact h4
  · after_results
    rw [h12]; rfl

/-- Operations 27 to 37: the second coordinate's column, moved to pixel units, (1 - b) / 2 * 1024. -/
theorem chunk4 (W : Valuation τ sig (Elt F)) (x0 : (⟨S32x200000x3, .f32⟩ : BufTy).Contents (Elt F)) (x1 : (⟨S32x3x4, .f32⟩ : BufTy).Contents (Elt F))
    (h4 : W (Proc.devRef .tc main_v4) = val_main_v4 (F := F) x0 x1) (h13 : W (Proc.devRef .tc main_v13) = val_main_v13 (F := F) x0 x1) :
    after (((ops (F := F)).drop 26).take 11) W (Proc.devRef .tc main_v4) = val_main_v4 (F := F) x0 x1
    ∧ after (((ops (F := F)).drop 26).take 11) W (Proc.devRef .tc main_v13) = val_main_v13 (F := F) x0 x1
    ∧ after (((ops (F := F)).drop 26).take 11) W (Proc.devRef .tc main_v21) = val_main_v21 (F := F) x0 x1 := by
  simp only [ops, List.drop_succ_cons, List.drop_zero, List.take_succ_cons, List.take_zero]
  refine ⟨?_, ?_, ?_⟩
  · after_results
    exact h4
  · after_results
    exact h13
  · after_results
    rw [h4]; rfl

/-- Operations 38 to 45: the second coordinate clipped to [0, 1023]. -/
theorem chunk5 (W : Valuation τ sig (Elt F)) (x0 : (⟨S32x200000x3, .f32⟩ : BufTy).Contents (Elt F)) (x1 : (⟨S32x3x4, .f32⟩ : BufTy).Contents (Elt F))
    (h4 : W (Proc.devRef .tc main_v4) = val_main_v4 (F := F) x0 x1) (h13 : W (Proc.devRef .tc main_v13) = val_main_v13 (F := F) x0 x1) (h21 : W (Proc.devRef .tc main_v21) = val_main_v21 (F := F) x0 x1) :
    after (((ops (F := F)).drop 37).take 8) W (Proc.devRef .tc main_v4) = val_main_v4 (F := F) x0 x1
    ∧ after (((ops (F := F)).drop 37).take 8) W (Proc.devRef .tc main_v13) = val_main_v13 (F := F) x0 x1
    ∧ after (((ops (F := F)).drop 37).take 8) W (Proc.devRef .tc main_v22) = val_main_v22 (F := F) x0 x1 := by
  simp only [ops, List.drop_succ_cons, List.drop_zero, List.take_succ_cons, List.take_zero]
  refine ⟨?_, ?_, ?_⟩
  · after_results
    exact h4
  · after_results
    exact h13
  · after_results
    rw [h21]; rfl

/-- Operations 46 to 51: the two pixel coordinates floored to integers, and the third coordinate's column. -/
theorem chunk6 (W : Valuation τ sig (Elt F)) (x0 : (⟨S32x200000x3, .f32⟩ : BufTy).Contents (Elt F)) (x1 : (⟨S32x3x4, .f32⟩ : BufTy).Contents (Elt F))
    (h4 : W (Proc.devRef .tc main_v4) = val_main_v4 (F := F) x0 x1) (h13 : W (Proc.devRef .tc main_v13) = val_main_v13 (F := F) x0 x1) (h22 : W (Proc.devRef .tc main_v22) = val_main_v22 (F := F) x0 x1) :
    after (((ops (F := F)).drop 45).take 6) W (Proc.devRef .tc main_v24) = val_main_v24 (F := F) x0 x1
    ∧ after (((ops (F := F)).drop 45).take 6) W (Proc.devRef .tc main_v26) = val_main_v26 (F := F) x0 x1
    ∧ after (((ops (F := F)).drop 45).take 6) W (Proc.devRef .tc main_v28) = val_main_v28 (F := F) x0 x1 := by
  simp only [ops, List.drop_succ_cons, List.drop_zero, List.take_succ_cons, List.take_zero]
  refine ⟨?_, ?_, ?_⟩
  · after_results
    rw [h13]; rfl
  · after_results
    rw [h22]; rfl
  · after_results
    rw [h4]; rfl

/-- Operations 52 to 63: each point's flat pixel address, batch * 1024 * 1024 + row * 1024 + column, as one vector. -/
theorem chunk7 (W : Valuation τ sig (Elt F)) (x0 : (⟨S32x200000x3, .f32⟩ : BufTy).Contents (Elt F)) (x1 : (⟨S32x3x4, .f32⟩ : BufTy).Contents (Elt F))
    (h24 : W (Proc.devRef .tc main_v24) = val_main_v24 (F := F) x0 x1) (h26 : W (Proc.devRef .tc main_v26) = val_main_v26 (F := F) x0 x1) (h28 : W (Proc.devRef .tc main_v28) = val_main_v28 (F := F) x0 x1) :
    after (((ops (F := F)).drop 51).take 12) W (Proc.devRef .tc main_v28) = val_main_v28 (F := F) x0 x1
    ∧ after (((ops (F := F)).drop 51).take 12) W (Proc.devRef .tc main_v38) = val_main_v38 (F := F) x0 x1 := by
  simp only [ops, List.drop_succ_cons, List.drop_zero, List.take_succ_cons, List.take_zero]
  refine ⟨?_, ?_⟩
  · after_results
    exact h28
  · after_results
    rw [h26, h24]; rfl

/-- Operations 64 to 68: the scatter of the points' numbers to their pixel addresses, the larger number winning, over the least integer. -/
theorem chunk8 (W : Valuation τ sig (Elt F)) (x0 : (⟨S32x200000x3, .f32⟩ : BufTy).Contents (Elt F)) (x1 : (⟨S32x3x4, .f32⟩ : BufTy).Contents (Elt F))
    (h28 : W (Proc.devRef .tc main_v28) = val_main_v28 (F := F) x0 x1) (h38 : W (Proc.devRef .tc main_v38) = val_main_v38 (F := F) x0 x1) :
    after (((ops (F := F)).drop 63).take 5) W (Proc.devRef .tc main_v28) = val_main_v28 (F := F) x0 x1
    ∧ after (((ops (F := F)).drop 63).take 5) W (Proc.devRef .tc main_v42) = val_main_v42 (F := F) x0 x1 := by
  simp only [ops, List.drop_succ_cons, List.drop_zero, List.take_succ_cons, List.take_zero]
  refine ⟨?_, ?_⟩
  · after_results
    exact h28
  · after_results
    rw [h38]; rfl

/-- Operations 69 to 76: which pixels were hit, the hit number clamped below at zero, and the third coordinate as one vector. -/
theorem chunk9 (W : Valuation τ sig (Elt F)) (x0 : (⟨S32x200000x3, .f32⟩ : BufTy).Contents (Elt F)) (x1 : (⟨S32x3x4, .f32⟩ : BufTy).Contents (Elt F))
    (h28 : W (Proc.devRef .tc main_v28) = val_main_v28 (F := F) x0 x1) (h42 : W (Proc.devRef .tc main_v42) = val_main_v42 (F := F) x0 x1) :
    after (((ops (F := F)).drop 68).take 8) W (Proc.devRef .tc main_v44) = val_main_v44 (F := F) x0 x1
    ∧ after (((ops (F := F)).drop 68).take 8) W (Proc.devRef .tc main_v45) = val_main_v45 (F := F) x0 x1
    ∧ after (((ops (F := F)).drop 68).take 8) W (Proc.devRef .tc main_v46) = val_main_v46 (F := F) x0 x1 := by
  simp only [ops, List.drop_succ_cons, List.drop_zero, List.take_succ_cons, List.take_zero]
  refine ⟨?_, ?_, ?_⟩
  · after_results
    rw [h42]; rfl
  · after_results
    unfold val_main_v45
    rw [← h42]
    generalize W (Proc.devRef .tc main_v42) = z
    rfl
  · after_results
    rw [h28]; rfl

/-- Operations 77 to 85: the gather of the third coordinate at each pixel's point number (a negative number wrapped by the vector's length). -/
theorem chunk10 (W : Valuation τ sig (Elt F)) (x0 : (⟨S32x200000x3, .f32⟩ : BufTy).Contents (Elt F)) (x1 : (⟨S32x3x4, .f32⟩ : BufTy).Contents (Elt F))
    (h44 : W (Proc.devRef .tc main_v44) = val_main_v44 (F := F) x0 x1) (h45 : W (Proc.devRef .tc main_v45) = val_main_v45 (F := F) x0 x1) (h46 : W (Proc.devRef .tc main_v46) = val_main_v46 (F := F) x0 x1) :
    after (((ops (F := F)).drop 76).take 9) W (Proc.devRef .tc main_v44) = val_main_v44 (F := F) x0 x1
    ∧ after (((ops (F := F)).drop 76).take 9) W (Proc.devRef .tc main_v53) = val_main_v53 (F := F) x0 x1 := by
  simp only [ops, List.drop_succ_cons, List.drop_zero, List.take_succ_cons, List.take_zero]
  refine ⟨?_, ?_⟩
  · after_results
    exact h44
  · after_results
    rw [h46, h45]; rfl

/-- Operations 86 to 90: zero where no point hit, and the image's shape. -/
theorem chunk11 (W : Valuation τ sig (Elt F)) (x0 : (⟨S32x200000x3, .f32⟩ : BufTy).Contents (Elt F)) (x1 : (⟨S32x3x4, .f32⟩ : BufTy).Contents (Elt F))
    (h44 : W (Proc.devRef .tc main_v44) = val_main_v44 (F := F) x0 x1) (h53 : W (Proc.devRef .tc main_v53) = val_main_v53 (F := F) x0 x1) :
    after ((ops (F := F)).drop 85) W (Proc.devRef .tc main_v55) = val_main_v55 (F := F) x0 x1 := by
  simp only [ops, List.drop_succ_cons, List.drop_zero]
  after_results
  unfold val_main_v55 val_main_v54
  rw [← h44, ← h53]
  generalize W (Proc.devRef .tc main_v44) = z44
  generalize W (Proc.devRef .tc main_v53) = z53
  rfl

/-- The contents after a line from its `a`-th operation on are those after its next `n` operations,
    then after the rest. -/
theorem after_cut (l : List (HloOp τ sig (Elt F))) (a n b : Nat) (hb : a + n = b) (V : Valuation τ sig (Elt F)) :
    after (l.drop a) V = after (l.drop b) (after ((l.drop a).take n) V) := by
  subst hb
  have e : l.drop (a + n) = (l.drop a).drop n := by simp [List.drop_drop, Nat.add_comm]
  rw [e, ← after_append, List.take_append_drop]

/-- After the whole line the result buffer holds the last stage's value of the arguments' contents:
    the eleven stretches in a row. -/
theorem result_eq (V : Valuation τ sig (Elt F)) (x0 : (⟨S32x200000x3, .f32⟩ : BufTy).Contents (Elt F)) (x1 : (⟨S32x3x4, .f32⟩ : BufTy).Contents (Elt F))
    (h0 : V (Proc.devRef .tc main_arg0) = x0) (h1 : V (Proc.devRef .tc main_arg1) = x1) :
    after (ops (F := F)) V (Proc.devRef .tc main_v55) = val_main_v55 (F := F) x0 x1 := by
  have e : after (ops (F := F)) V = after ((ops (F := F)).drop 9) (after ((ops (F := F)).take 9) V) := by
    rw [← after_append, List.take_append_drop]
  rw [e, after_cut ops 9 9 18 rfl, after_cut ops 18 8 26 rfl, after_cut ops 26 11 37 rfl, after_cut ops 37 8 45 rfl,
    after_cut ops 45 6 51 rfl, after_cut ops 51 12 63 rfl, after_cut ops 63 5 68 rfl, after_cut ops 68 8 76 rfl,
    after_cut ops 76 9 85 rfl]
  have s1 := chunk1 V x0 x1 h0 h1
  have s2 := chunk2 _ x0 x1 s1.1 s1.2
  have s3 := chunk3 _ x0 x1 s2.1 s2.2
  have s4 := chunk4 _ x0 x1 s3.1 s3.2
  have s5 := chunk5 _ x0 x1 s4.1 s4.2.1 s4.2.2
  have s6 := chunk6 _ x0 x1 s5.1 s5.2.1 s5.2.2
  have s7 := chunk7 _ x0 x1 s6.1 s6.2.1 s6.2.2
  have s8 := chunk8 _ x0 x1 s7.1 s7.2
  have s9 := chunk9 _ x0 x1 s8.1 s8.2
  have s10 := chunk10 _ x0 x1 s9.1 s9.2.1 s9.2.2
  exact chunk11 _ x0 x1 s10.1 s10.2

/-- No operation of the line writes the first argument's buffer. -/
theorem arg0_eq (V : Valuation τ sig (Elt F)) :
    after (ops (F := F)) V (Proc.devRef .tc main_arg0) = V (Proc.devRef .tc main_arg0) := by
  after_results_simp

/-- No operation of the line writes the second argument's buffer. -/
theorem arg1_eq (V : Valuation τ sig (Elt F)) :
    after (ops (F := F)) V (Proc.devRef .tc main_arg1) = V (Proc.devRef .tc main_arg1) := by
  after_results_simp

/-- On every device, from any memory with zero counters: every weakly fair execution of the
    reference terminates with its result at the last stage's value of the arguments, the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v55)
        = val_main_v55 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v55).trans (result_eq (launchContents m c) _ _ rfl rfl),
      (h c main_arg0).trans (arg0_eq (launchContents m c)),
      (h c main_arg1).trans (arg1_eq (launchContents m c))⟩)
    (run_seq scopedRefs_eq scopedSems_eq defs main (fun _ => ops) main_eq (fun _ => ops_sub) m ρ)

end Cert.ReferenceIdeal.RefRun

end
-- ==== Proof.RefArrays.lean ====
/-
  The reference's pixel words and depths at one point.

  The reference appends a one to each point, contracts the four entries with a row of the batch's
  3 × 4 matrix, halves the three results, moves the first two to the raster, and forms the flat pixel
  word b·1024² + row·1024 + column. Over the extended reals the contraction is the point's affine
  form summed in any order, the appended one contributes the row's last coefficient, and the integer
  1023 that bounds the raster is the float 1023: the reference's pixel word and depth at a point are
  the per-point specification's.
-/
import proofs.«128998_j8263517077853_1_alg».proof.Proof.ReadReference
import proofs.«128998_j8263517077853_1_alg».proof.Proof.Spec
import Idealize.ShloMosaic.Lib.Pipeline.Value
import Idealize.ShloMosaic.Lib.ValueIdx
import Idealize.ShloMosaic.PureOps.Ideal.Laws

noncomputable section

namespace Cert.ReferenceIdeal.RefArrays

open Cert.ReferenceIdeal Cert.ReferenceIdeal.Gen Cert.ReferenceIdeal.ReadP Idealize.ShloMosaic
  Idealize.ShloMosaic.ValueIdx Cert.Spec

/-! ### Two float words -/

/-- The word 0x3F800000 is the real 1: sign 0, exponent 127, fraction 0, so 2²³ · 2⁻²³. -/
theorem one_word : Ideal.ofBits .f32 0x3F800000#32 = 1 := by
  simp [Ideal.ofBits, Ideal.ieee]
  rw [← EReal.coe_mul, ← EReal.coe_one, EReal.coe_eq_coe_iff]
  norm_num

/-- The integer 1023 converted to a float is the word 0x447FC000: exponent 136, fraction 0x7FC000,
    so 16760832 · 2⁻¹⁴ = 1023. -/
theorem hi_word : FloatOps.sitofp (F := Ideal) .f32 (1023#32) = Ideal.ofBits .f32 0x447FC000#32 := by
  show (((1023#32 : BitVec 32).toInt : ℝ) : EReal) = _
  simp [Ideal.ofBits, Ideal.ieee]
  rw [← EReal.coe_mul, EReal.coe_eq_coe_iff]
  norm_num

/-! ### The point with a one appended -/

/-- The first three entries of the extended point are the point's own coordinates. -/
theorem cat_lo (x0 : (⟨S32x200000x3, .f32⟩ : BufTy).Contents (Elt Ideal)) (b : Fin 32) (j : Fin 200000)
    (k : Fin 4) (hk : k.val < 3) :
    val_main_v1 (F := Ideal) x0 (ix3 b j k) = x0 (ix3 b j ⟨k.val, hk⟩) := by
  unfold val_main_v1
  exact concatenate_pair_apply_left (t := S32x200000x4) (s₁ := S32x200000x3) (s₂ := S32x200000x1) 2 x0 (val_main_v0 (F := Ideal))
    concatenates_S32x200000x3_S32x200000x1_S32x200000x4_d2 (ix3 b j k) rfl (ix3 b j ⟨k.val, hk⟩)
    (fun a => by match a with | ⟨0, _⟩ => rfl | ⟨1, _⟩ => rfl | ⟨2, _⟩ => rfl)

/-- The fourth entry of the extended point is the appended constant, the real 1. -/
theorem cat_hi (x0 : (⟨S32x200000x3, .f32⟩ : BufTy).Contents (Elt Ideal)) (b : Fin 32) (j : Fin 200000) :
    val_main_v1 (F := Ideal) x0 (ix3 b j (3 : Fin 4)) = 1 := by
  unfold val_main_v1
  rw [concatenate_pair_apply_right (t := S32x200000x4) (s₁ := S32x200000x3) (s₂ := S32x200000x1) 2 x0 (val_main_v0 (F := Ideal))
    concatenates_S32x200000x3_S32x200000x1_S32x200000x4_d2 (ix3 b j (3 : Fin 4)) rfl rfl (ix3 b j (0 : Fin 1))
    (fun a => by match a with | ⟨0, _⟩ => exact fun _ => rfl | ⟨1, _⟩ => exact fun _ => rfl | ⟨2, _⟩ => exact fun h => absurd rfl h)
    rfl]
  rw [val_main_v0_apply, val_main_cst_apply, Ideal.ofBits_def, one_word]

/-! ### The contraction -/

/-- Entry (b, j, r) of the contraction reads the extended point (b, j, ·) at the summed position. -/
theorem lidx_eq (b : Fin 32) (j : Fin 200000) (r : Fin 3) (k : Fin 4) :
    lidx_main_v2 (ix3 b j r) k = ix3 b j k :=
  funext fun a => Fin.ext (by match a with | ⟨0, _⟩ => rfl | ⟨1, _⟩ => rfl | ⟨2, _⟩ => rfl)

/-- Entry (b, j, r) of the contraction reads row r of the batch's matrix at the summed position. -/
theorem ridx_eq (b : Fin 32) (j : Fin 200000) (r : Fin 3) (k : Fin 4) :
    ridx_main_v2 (ix3 b j r) k = ix3 b r k :=
  funext fun a => Fin.ext (by match a with | ⟨0, _⟩ => rfl | ⟨1, _⟩ => rfl | ⟨2, _⟩ => rfl)

/-- One halved projected coordinate: the four-term sum, written out left to right, is the point's
    affine form in row `r`, the appended one contributing the row's last coefficient. -/
theorem proj_apply (x0 : (⟨S32x200000x3, .f32⟩ : BufTy).Contents (Elt Ideal)) (x1 : (⟨S32x3x4, .f32⟩ : BufTy).Contents (Elt Ideal))
    (b : Fin 32) (j : Fin 200000) (r : Fin 3) :
    val_main_v4 (F := Ideal) x0 x1 (ix3 b j r)
      = half (tcoord (x0 (ix3 b j 0)) (x0 (ix3 b j 1)) (x0 (ix3 b j 2)) (fun k => x1 (ix3 b r k))) := by
  rw [val_main_v4_apply, val_main_v2_apply, val_main_v3_apply, val_main_cst_0_apply, Fin.sum_univ_four]
  simp only [lidx_eq, ridx_eq, Ideal.hostDivf_def, Ideal.ofBits_def]
  rw [cat_hi, cat_lo x0 b j 0 (by decide), cat_lo x0 b j 1 (by decide), cat_lo x0 b j 2 (by decide), one_mul]
  rfl

/-! ### Slicing a coordinate out and dropping the unit axis -/

/-- Point (b, j) of the third slice, unit axis dropped, is entry (b, j, 2): the flat position
    b · 200000 + j splits back into b and j. -/
theorem idx_depth (b : Fin 32) (j : Fin 200000) :
    idx_main_v27 (idx_main_v28 (ix2 b j)) = ix3 b j (2 : Fin 3) := by
  have hb := b.isLt
  have hj := j.isLt
  exact funext fun a => Fin.ext (by
    match a with
    | ⟨0, _⟩ => show (b.val * 200000 + j.val) / 200000 = b.val; omega
    | ⟨1, _⟩ => show (b.val * 200000 + j.val) / 1 % 200000 = j.val; omega
    | ⟨2, _⟩ => rfl)

/-- Point (b, j) of the first slice, unit axis dropped, is entry (b, j, 0). -/
theorem idx_col (b : Fin 32) (j : Fin 200000) :
    idx_main_v5 (idx_main_v6 (ix2 b j)) = ix3 b j (0 : Fin 3) := by
  have hb := b.isLt
  have hj := j.isLt
  exact funext fun a => Fin.ext (by
    match a with
    | ⟨0, _⟩ => show (b.val * 200000 + j.val) / 200000 = b.val; omega
    | ⟨1, _⟩ => show (b.val * 200000 + j.val) / 1 % 200000 = j.val; omega
    | ⟨2, _⟩ => rfl)

/-- Point (b, j) of the second slice, unit axis dropped, is entry (b, j, 1). -/
theorem idx_row (b : Fin 32) (j : Fin 200000) :
    idx_main_v14 (idx_main_v15 (ix2 b j)) = ix3 b j (1 : Fin 3) := by
  have hb := b.isLt
  have hj := j.isLt
  exact funext fun a => Fin.ext (by
    match a with
    | ⟨0, _⟩ => show (b.val * 200000 + j.val) / 200000 = b.val; omega
    | ⟨1, _⟩ => show (b.val * 200000 + j.val) / 1 % 200000 = j.val; omega
    | ⟨2, _⟩ => rfl)

/-! ### The pixel coordinates and the batch term -/

/-- The column word: the halved first coordinate plus one, halved, scaled by 1024, clamped between
    0 and the float 1023, rounded down and read as a word. -/
theorem col_apply (x0 : (⟨S32x200000x3, .f32⟩ : BufTy).Contents (Elt Ideal)) (x1 : (⟨S32x3x4, .f32⟩ : BufTy).Contents (Elt Ideal))
    (b : Fin 32) (j : Fin 200000) :
    val_main_v24 (F := Ideal) x0 x1 (ix2 b j)
      = pixel (ucol (tcoord (x0 (ix3 b j 0)) (x0 (ix3 b j 1)) (x0 (ix3 b j 2)) (fun k => x1 (ix3 b 0 k)))) := by
  rw [val_main_v24_apply, val_main_v23_apply, val_main_v13_apply, val_main_call0_v4_apply, val_main_call0_v3_apply,
    val_main_c_apply, val_main_call0_v2_apply, val_main_call0_v1_apply, val_main_call0_v0_apply, val_main_cst_4_apply,
    val_main_v12_apply, val_main_v11_apply, val_main_cst_3_apply, val_main_v10_apply, val_main_v9_apply, val_main_cst_2_apply,
    val_main_v8_apply, val_main_v7_apply, val_main_cst_1_apply, val_main_v6_apply, val_main_v5_apply, idx_col, proj_apply, hi_word]
  rfl

/-- The row word: one minus the halved second coordinate, through the same map to the raster. -/
theorem row_apply (x0 : (⟨S32x200000x3, .f32⟩ : BufTy).Contents (Elt Ideal)) (x1 : (⟨S32x3x4, .f32⟩ : BufTy).Contents (Elt Ideal))
    (b : Fin 32) (j : Fin 200000) :
    val_main_v26 (F := Ideal) x0 x1 (ix2 b j)
      = pixel (urow (tcoord (x0 (ix3 b j 0)) (x0 (ix3 b j 1)) (x0 (ix3 b j 2)) (fun k => x1 (ix3 b 1 k)))) := by
  rw [val_main_v26_apply, val_main_v25_apply, val_main_v22_apply, val_main_call1_v4_apply, val_main_call1_v3_apply,
    val_main_c_9_apply, val_main_call1_v2_apply, val_main_call1_v1_apply, val_main_call1_v0_apply, val_main_cst_8_apply,
    val_main_v21_apply, val_main_v20_apply, val_main_cst_7_apply, val_main_v19_apply, val_main_v18_apply, val_main_cst_6_apply,
    val_main_v17_apply, val_main_v16_apply, val_main_cst_5_apply, val_main_v15_apply, val_main_v14_apply, idx_row, proj_apply, hi_word]
  rfl

/-- The batch term: the batch number times 1024², the same for every point of the batch. -/
theorem batch_apply (b : Fin 32) (j : Fin 200000) :
    val_main_v35 (F := Ideal) (ix2 b j) = BitVec.ofNat 32 b.val * 1048576#32 := by
  rw [val_main_v35_apply, val_main_v32_apply, val_main_v30_apply, val_main_v29_apply, val_main_v31_apply, val_main_c_10_apply]
  rfl

/-- The flat pixel word the reference computes for point `j` of batch `b`. The reference adds the
    batch term first and the column last; word addition is commutative and associative. -/
theorem seg_apply (x0 : (⟨S32x200000x3, .f32⟩ : BufTy).Contents (Elt Ideal)) (x1 : (⟨S32x3x4, .f32⟩ : BufTy).Contents (Elt Ideal))
    (b : Fin 32) (j : Fin 200000) :
    val_main_v37 (F := Ideal) x0 x1 (ix2 b j)
      = segWord (tcoord (x0 (ix3 b j 0)) (x0 (ix3 b j 1)) (x0 (ix3 b j 2)) (fun k => x1 (ix3 b 0 k)))
          (tcoord (x0 (ix3 b j 0)) (x0 (ix3 b j 1)) (x0 (ix3 b j 2)) (fun k => x1 (ix3 b 1 k))) b.val := by
  rw [val_main_v37_apply, val_main_v36_apply, val_main_v34_apply, val_main_v33_apply, val_main_c_11_apply,
    col_apply, row_apply, batch_apply]
  unfold segWord
  simp only [IntOp.addi, IntOp.muli]
  ac_rfl

/-- The depth the reference computes for point `j` of batch `b`. -/
theorem depth_apply (x0 : (⟨S32x200000x3, .f32⟩ : BufTy).Contents (Elt Ideal)) (x1 : (⟨S32x3x4, .f32⟩ : BufTy).Contents (Elt Ideal))
    (b : Fin 32) (j : Fin 200000) :
    val_main_v28 (F := Ideal) x0 x1 (ix2 b j)
      = half (tcoord (x0 (ix3 b j 0)) (x0 (ix3 b j 1)) (x0 (ix3 b j 2)) (fun k => x1 (ix3 b 2 k))) := by
  rw [val_main_v28_apply, val_main_v27_apply, idx_depth, proj_apply]

end Cert.ReferenceIdeal.RefArrays

end
-- ==== Proof.RefTail.lean ====
/-
  The reference's last stages are the last-write-wins composite.

  After the pixel words and depths are flattened to one axis of 32 · 200000 writes, the reference
  scatters each write's position into its pixel's cell under max, tests the cell for a position,
  clips, and gathers the depth at that position, zero elsewhere: the composite `pick` at
  6400000 writes over 32 · 1024 · 1024 cells, reshaped to the depth map.
-/
import proofs.«128998_j8263517077853_1_alg».proof.Proof.ReadReference
import proofs.«128998_j8263517077853_1_alg».proof.Proof.LibLastWriteWins

noncomputable section

namespace Cert.ReferenceIdeal.RefTail

open Cert.ReferenceIdeal Cert.ReferenceIdeal.Gen Cert.ReferenceIdeal.ReadP Idealize.ShloMosaic Cert.LastWriteWins

/-- The reference's flat result is `pick` of its flat pixel words and flat depths. -/
theorem v54_eq_pick (x0 : (⟨S32x200000x3, .f32⟩ : BufTy).Contents (Elt Ideal)) (x1 : (⟨S32x3x4, .f32⟩ : BufTy).Contents (Elt Ideal)) :
    val_main_v54 (F := Ideal) x0 x1
      = pick scatter_S33554432_S6400000x1_S6400000_n_0_0_1 gather_S6400000_S33554432x1_S33554432_n_0_n_n_0_1_1
          bcast_S_S33554432 bcast_S6400000_S6400000x1_0 bcast_S33554432_S33554432x1_0 6400000#32
          (val_main_v38 (F := Ideal) x0 x1) (val_main_v46 (F := Ideal) x0 x1) (constant (F := Ideal) S_ .f32 0x00000000#32) := by
  rfl

end Cert.ReferenceIdeal.RefTail

end
-- ==== Proof.Bridge.lean ====
/-
  The two write sequences fill the depth map alike.

  The reference flattens 32 batches of 200000 points to 6400000 writes; the kernel flattens 32
  batches of 204800 positions (200000 points, then 4800 of padding) to 6553600 writes. Sending write
  `j` of the reference to position `(j / 200000) · 204800 + j % 200000` of the kernel's sequence is
  strictly increasing, keeps each point's pixel word and depth (both are the per-point
  specification's), and misses exactly the padding positions, whose word -1 names no cell. By the
  last-write-wins transfer lemma every cell of the depth map ends alike.
-/
import proofs.«128998_j8263517077853_1_alg».proof.Proof.KernelArrays
import proofs.«128998_j8263517077853_1_alg».proof.Proof.RefArrays
import proofs.«128998_j8263517077853_1_alg».proof.Proof.RefTail
import proofs.«128998_j8263517077853_1_alg».proof.Proof.LibLastWriteWins
import proofs.«128998_j8263517077853_1_alg».proof.Proof.Spec
import Idealize.ShloMosaic.Lib.Pipeline.Value
import Idealize.ShloMosaic.Lib.ValueIdx

noncomputable section

namespace Cert.Bridge

open Idealize.ShloMosaic Idealize.ShloMosaic.TcCoe Idealize.ShloMosaic.ValueIdx Idealize.SL.Sem
  Cert.LastWriteWins Cert.Spec

/-- Write `j` of the unpadded flattening, as a position of the padded one. -/
def embed (j : Fin 6400000) : Fin 6553600 :=
  ⟨j.val / 200000 * 204800 + j.val % 200000, by have := j.isLt; omega⟩

theorem embed_strictMono : StrictMono embed := by
  intro a b h
  have ha := a.isLt
  have hb := b.isLt
  have h' : a.val < b.val := h
  show a.val / 200000 * 204800 + a.val % 200000 < b.val / 200000 * 204800 + b.val % 200000
  omega

/-- A position of the padded flattening that no real write reaches is a padding position. -/
theorem padding_of_not_range (i : Fin 6553600) (h : ∀ j : Fin 6400000, embed j ≠ i) : 200000 ≤ i.val % 204800 := by
  by_contra hlt
  have hi := i.isLt
  refine h ⟨i.val / 204800 * 200000 + i.val % 204800, by omega⟩ (Fin.ext ?_)
  show (i.val / 204800 * 200000 + i.val % 204800) / 200000 * 204800 + (i.val / 204800 * 200000 + i.val % 204800) % 200000 = i.val
  omega

/-- The word -1 names no cell. -/
theorem land_neg_one (N : Nat) : land N 4294967295#32 = none := by
  unfold land
  rw [dif_neg]
  intro h
  have : (4294967295#32 : BitVec 32).toInt = -1 := by decide
  omega

section

open Cert.KernelIdeal Cert.KernelIdeal.Arrays

variable (m : (ℓ : Loc Cert.KernelIdeal.nD Cert.KernelIdeal.τ Cert.KernelIdeal.sig) → Buf (Elt Ideal) ℓ)

/-- The kernel's flat pixel words: the pixel array, batch-major. -/
def segFlat (c : Dev Cert.KernelIdeal.nD) : Cert.KernelIdeal.S6553600.Idx → BitVec 32 :=
  shapeCast Cert.KernelIdeal.S6553600 (segArr m c) Cert.KernelIdeal.Facts₀.shapeCasts_S32x204800_S6553600

/-- The kernel's flat depths: the depth array, batch-major. -/
def depthFlat (c : Dev Cert.KernelIdeal.nD) : Cert.KernelIdeal.S6553600.Idx → EReal :=
  shapeCast Cert.KernelIdeal.S6553600 (depthArr m c) Cert.KernelIdeal.Facts₀.shapeCasts_S32x204800_S6553600

/-- A flat position of the padded sequence read in the array: batch `i / 204800`, position `i % 204800`. -/
theorem flat_apply {α : Type} (x : Cert.KernelIdeal.S32x204800.Idx → α) (i : Fin 6553600) :
    shapeCast Cert.KernelIdeal.S6553600 x Cert.KernelIdeal.Facts₀.shapeCasts_S32x204800_S6553600 (ix1 i)
      = x (ix2 ⟨i.val / 204800, by have := i.isLt; omega⟩ ⟨i.val % 204800, Nat.mod_lt _ (by decide)⟩) := by
  refine shapeCast_apply x _ (ix1 i) _ ?_
  rw [Shape.rowMajor_val_two, Shape.rowMajor_val_one]
  show i.val / 204800 * 204800 + i.val % 204800 = i.val
  omega

/-- The batch and the position of the image of write `j`. -/
theorem embed_div (j : Fin 6400000) : (embed j).val / 204800 = j.val / 200000 := by
  have := j.isLt
  show (j.val / 200000 * 204800 + j.val % 200000) / 204800 = j.val / 200000
  omega
theorem embed_mod (j : Fin 6400000) : (embed j).val % 204800 = j.val % 200000 := by
  have := j.isLt
  show (j.val / 200000 * 204800 + j.val % 200000) % 204800 = j.val % 200000
  omega

/-- The batch of write `j` and its position in the batch. -/
abbrev bat (j : Fin 6400000) : Fin 32 := ⟨j.val / 200000, by have := j.isLt; omega⟩
abbrev pos (j : Fin 6400000) : Fin 200000 := ⟨j.val % 200000, Nat.mod_lt _ (by decide)⟩
abbrev posPad (j : Fin 6400000) : Fin 204800 := ⟨j.val % 200000, by have := Nat.mod_lt j.val (show 0 < 200000 by decide); omega⟩

theorem ix_embed (j : Fin 6400000) :
    (ix2 (⟨(embed j).val / 204800, by have := (embed j).isLt; omega⟩ : Fin 32) (⟨(embed j).val % 204800, Nat.mod_lt _ (by decide)⟩ : Fin 204800))
      = ix2 (bat j) (posPad j) := by
  congr 1
  · exact Fin.ext (embed_div j)
  · exact Fin.ext (embed_mod j)

open Cert.ReferenceIdeal.ReadP Cert.ReferenceIdeal.RefArrays

/-- The argument arrays, as the reference's stages take them. -/
abbrev argPts (c : Dev Cert.KernelIdeal.nD) : (⟨Cert.ReferenceIdeal.S32x200000x3, .f32⟩ : BufTy).Contents (Elt Ideal) :=
  m ((c.tc : Thread Cert.KernelIdeal.nD Cert.KernelIdeal.τ).loc Cert.KernelIdeal.main_arg0)
abbrev argMat (c : Dev Cert.KernelIdeal.nD) : (⟨Cert.ReferenceIdeal.S32x3x4, .f32⟩ : BufTy).Contents (Elt Ideal) :=
  m ((c.tc : Thread Cert.KernelIdeal.nD Cert.KernelIdeal.τ).loc Cert.KernelIdeal.main_arg1)

theorem idx38 (j : Fin 6400000) : idx_main_v38 (ix1 j) = ix2 (bat j) (pos j) :=
  funext fun a => match a with | ⟨0, _⟩ => rfl | ⟨1, _⟩ => rfl
theorem idx46 (j : Fin 6400000) : idx_main_v46 (ix1 j) = ix2 (bat j) (pos j) :=
  funext fun a => match a with | ⟨0, _⟩ => rfl | ⟨1, _⟩ => rfl

/-- The image of write `j` carries the pixel word the reference gives write `j`. -/
theorem seg_embed (c : Dev Cert.KernelIdeal.nD) (j : Fin 6400000) :
    segFlat m c (ix1 (embed j)) = val_main_v38 (F := Ideal) (argPts m c) (argMat m c) (ix1 j) := by
  have hlt : (posPad j).val < 200000 := Nat.mod_lt _ (by decide)
  rw [val_main_v38_apply, idx38, seg_apply]
  unfold segFlat
  rw [flat_apply, ix_embed]
  unfold segArr
  rw [if_pos hlt]
  simp only [ptk_real m c _ _ _ hlt]
  rfl

/-- The image of write `j` carries the depth the reference gives write `j`. -/
theorem depth_embed (c : Dev Cert.KernelIdeal.nD) (j : Fin 6400000) :
    depthFlat m c (ix1 (embed j)) = val_main_v46 (F := Ideal) (argPts m c) (argMat m c) (ix1 j) := by
  have hlt : (posPad j).val < 200000 := Nat.mod_lt _ (by decide)
  rw [val_main_v46_apply, idx46, depth_apply]
  unfold depthFlat
  rw [flat_apply, ix_embed]
  unfold depthArr
  simp only [ptk_real m c _ _ _ hlt]
  rfl

/-- A padding position carries the word -1. -/
theorem seg_padding (c : Dev Cert.KernelIdeal.nD) (i : Fin 6553600) (h : 200000 ≤ i.val % 204800) :
    segFlat m c (ix1 i) = 4294967295#32 := by
  unfold segFlat
  rw [flat_apply]
  unfold segArr
  exact if_neg (by show ¬ (i.val % 204800 < 200000); omega)

/-- Every cell of the depth map: the kernel's write sequence and the reference's fill it alike. -/
theorem picks_agree (c : Dev Cert.KernelIdeal.nD) :
    pick Cert.KernelIdeal.scatter_S33554432_S6553600x1_S6553600_n_0_0_1 Cert.KernelIdeal.gather_S6553600_S33554432x1_S33554432_n_0_n_n_0_1_1
        Cert.KernelIdeal.Facts₀.bcast_S_S33554432 Cert.KernelIdeal.Facts₀.bcast_S6553600_S6553600x1_0 Cert.KernelIdeal.Facts₀.bcast_S33554432_S33554432x1_0 6553600#32
        (segFlat m c) (depthFlat m c) (constant (F := Ideal) Cert.KernelIdeal.S_ .f32 0x00000000#32)
      = pick Cert.ReferenceIdeal.scatter_S33554432_S6400000x1_S6400000_n_0_0_1 Cert.ReferenceIdeal.gather_S6400000_S33554432x1_S33554432_n_0_n_n_0_1_1
        Cert.ReferenceIdeal.Facts₀.bcast_S_S33554432 Cert.ReferenceIdeal.Facts₀.bcast_S6400000_S6400000x1_0 Cert.ReferenceIdeal.Facts₀.bcast_S33554432_S33554432x1_0 6400000#32
        (val_main_v38 (F := Ideal) (argPts m c) (argMat m c)) (val_main_v46 (F := Ideal) (argPts m c) (argMat m c))
        (constant (F := Ideal) Cert.ReferenceIdeal.S_ .f32 0x00000000#32) := by
  funext i
  rw [eq_ix1 i]
  exact pick_transfer _ _ _ _ _ _ _ _ rfl rfl rfl rfl rfl rfl rfl rfl rfl rfl rfl rfl rfl rfl rfl rfl
    (by decide) (by decide) _ _ _ _ _ _ _ embed embed_strictMono
    (fun j => seg_embed m c j)
    (fun i hi => by rw [seg_padding m c i (padding_of_not_range i hi)]; exact land_neg_one _)
    (fun j => depth_embed m c j) (i 0)

end

end Cert.Bridge

end
-- ==== Proof.lean ====
/-
  The depth-map kernel against its reference: the certificate's five claims.

  Both programs send every point of 32 clouds of 200000 points through its cloud's 3 × 4 affine
  map, halve the three coordinates, bin the first two into a 1024 × 1024 raster, and keep, per
  pixel, the depth of the LAST point that fell there (the one with the largest position), zero
  where none fell. The kernel computes the per-point part in a pipelined region over positions
  padded from 200000 to 204800 per cloud, marking the padding with the pixel word -1; both
  programs then find each pixel's last point by scattering positions under max and gathering.

  Over the extended reals the two per-point computations are one function: the reference's
  contraction with an appended one is the affine form, summed in another order, and its integer
  bound 1023 is the float 1023. The padding's word names no pixel, and the map from a position of
  the unpadded flattening to its position in the padded one is strictly increasing, so "last" means
  the same point in both: every pixel ends alike (the last-write-wins transfer lemma).

  The kernel's two frames are its frame certificates; the reference's frame is its run with the
  result dropped; the idealization rewrote nothing, so `preserves` is trivial.
-/
import proofs.«128998_j8263517077853_1_alg».proof.Defs
import proofs.«128998_j8263517077853_1_alg».proof.Proof.Gen.Kernel
import proofs.«128998_j8263517077853_1_alg».proof.Proof.Gen.KernelIdeal
import proofs.«128998_j8263517077853_1_alg».proof.Proof.Gen.ReferenceIdeal
import proofs.«128998_j8263517077853_1_alg».proof.Proof.Gen.Pre_finite_inputs
import proofs.«128998_j8263517077853_1_alg».proof.Proof.FrameKernel
import proofs.«128998_j8263517077853_1_alg».proof.Proof.KernelRun
import proofs.«128998_j8263517077853_1_alg».proof.Proof.RefRun
import proofs.«128998_j8263517077853_1_alg».proof.Proof.Bridge
import Idealize.ShloMosaic.Adequacy
import Idealize.ShloMosaic.Init

noncomputable section

namespace Cert.Proof

open Idealize.ShloMosaic Idealize.SL.Sem

/-- The word-level kernel runs and keeps its arguments: its frame certificate. -/
theorem frame_kernel : Cert.frame_Kernel := fun m ρ _ => Cert.Kernel.GenP.frame m ρ

/-- The idealized kernel runs and keeps its arguments: its frame certificate. -/
theorem frame_kernelIdeal : Cert.frame_KernelIdeal := fun m ρ _ => Cert.KernelIdeal.GenP.frame m ρ

/-- The reference runs and keeps its arguments: its run, the result dropped. -/
theorem frame_reference : Cert.frame_ReferenceIdeal := fun m ρ _ =>
  (θ_run Cert.ReferenceIdeal.defs _ _).mono (fun _ h c => (h c).2) (Cert.ReferenceIdeal.RefRun.run (F := Ideal) m ρ)

/-- The idealization rewrote no operation. -/
theorem preserves : Cert.preserves_Kernel_KernelIdeal := trivial

/-- From memories agreeing on the arguments both idealized programs end with the same depth map:
    the kernel's is `pick` of its flattened pixel and depth arrays, the reference's `pick` of its own,
    and the two fill every cell alike. -/
theorem algebraic : Cert.algebraic_KernelIdeal_ReferenceIdeal := by
  intro m ρ m' ρ' _ hagree
  refine ⟨fun c => Cert.KernelIdeal.Run.result m c, Cert.KernelIdeal.Run.run_value m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2]
  unfold Cert.ReferenceIdeal.ReadP.val_main_v55 Cert.KernelIdeal.Run.result
  rw [Cert.ReferenceIdeal.RefTail.v54_eq_pick]
  exact congrArg (fun x => shapeCast Cert.KernelIdeal.S32x1024x1024 x Cert.KernelIdeal.Facts₀.shapeCasts_S33554432_S32x1024x1024)
    (Cert.Bridge.picks_agree m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
